-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x2048 : Shape := ⟨3, ![8, 4096, 2048]⟩
abbrev S_ : Shape := ⟨0, ![]⟩

class Facts : Prop where
  bcast_S_S8x4096x2048 : S_.BroadcastsInDim S8x4096x2048 (![] : Fin 0 → Fin S8x4096x2048.rank)
  reducesTo_S8x4096x2048_S_d0_1_2 : S8x4096x2048.ReducesTo [0, 1, 2] S_
  h_S_ : 0 < S_.numel

variable [Facts]

def fn {F : FTy → Type} [FloatOps F] (main_arg0 : FVec F S8x4096x2048 .f32) : IVec S_ 1 :=
  let main_v0 : FVec F S8x4096x2048 .f32 := Host.absf main_arg0
  let main_cst : FVec F S_ .f32 := constant S_ .f32 0x7F800000#32
  let main_v1 : FVec F S8x4096x2048 .f32 := broadcastInDim S8x4096x2048 ![] bcast_S_S8x4096x2048 main_cst
  let main_v2 : IVec S8x4096x2048 1 := cmpf .olt main_v0 main_v1
  let main_c : IVec S_ 1 := constantI S_ 1 1#1
  let main_v3 : IVec S_ 1 := (fun x v => Host.reduce IntOp.andi x v reducesTo_S8x4096x2048_S_d0_1_2 h_S_) main_v2 main_c
  main_v3
-- ==== Kernel.lean ====
abbrev S8x4096x2048 : Shape := ⟨3, ![8, 4096, 2048]⟩
abbrev S8x8x128 : Shape := ⟨3, ![8, 8, 128]⟩
abbrev S1x512x2048 : Shape := ⟨3, ![1, 512, 2048]⟩
abbrev S1x8x128 : Shape := ⟨3, ![1, 8, 128]⟩
abbrev S1x2048 : Shape := ⟨2, ![1, 2048]⟩
abbrev S1x1 : Shape := ⟨2, ![1, 1]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S8x128 : Shape := ⟨2, ![8, 128]⟩
abbrev S8x1x1 : Shape := ⟨3, ![8, 1, 1]⟩
abbrev S8 : Shape := ⟨1, ![8]⟩
abbrev S_ : Shape := ⟨0, ![]⟩

abbrev nBuf : Space → Nat
  | .hbm => 10
  | .vmem => 6
  | .smem => 0
  | _ => 0

abbrev bufTy : (tb : Table) → Fin (tcTables nBuf tb) → BufTy
  | .hbm, ⟨0, _⟩ => ⟨S8x4096x2048, .f32⟩
  | .hbm, ⟨1, _⟩ => ⟨S8x8x128, .f32⟩
  | .hbm, ⟨2, _⟩ => ⟨S8x1x1, .f32⟩
  | .hbm, ⟨3, _⟩ => ⟨S8, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S1x512x2048, .f32⟩
  | .local _ .vmem, ⟨1, _⟩ => ⟨S1x512x2048, .f32⟩
  | .local _ .vmem, ⟨2, _⟩ => ⟨S1x8x128, .f32⟩
  | .local _ .vmem, ⟨3, _⟩ => ⟨S1x8x128, .f32⟩
  | .local _ .vmem, ⟨4, _⟩ => ⟨S1x2048, .f32⟩
  | .local _ .vmem, ⟨5, _⟩ => ⟨S1x1, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 8], ![false, false]⟩

def k0_cond3 (i : grid0.Coords) : BitVec 1 :=
  let arg1 : BitVec 32 := BitVec.ofNat 32 (i 1).val
  let c7_i32 : BitVec 32 := 7#32
  let v37 : BitVec 1 := Scalar.cmpi .eq arg1 c7_i32
  let v38 : BitVec 32 := Scalar.extui v37
  let c0_i32_15 : BitVec 32 := 0#32
  let v39 : BitVec 1 := Scalar.cmpi .ne v38 c0_i32_15
  v39

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  reduces_S512x2048_S512 : S512x2048.Reduces [1] S512
  shapeCasts_S512_S512x1 : S512.ShapeCasts S512x1
  broadcasts_S512x1_S512x2048 : S512x1.Broadcasts S512x2048
  rotates_S512x2048_d0 : S512x2048.Rotates 0 none
  iota_S512x1_d0_w32 : S512x1.Iotas .tc 32 [0]
  natLt_1_32 : 1 < 32
  reduces_S512x1_S1 : S512x1.Reduces [0] S1
  shapeCasts_S1_S1x1 : S1.ShapeCasts S1x1
  inb_S1x2048_S1x2048_0_0 : ∀ a, (![0, 0] : Fin 2 → Nat) a + S1x2048.size a ≤ S1x2048.size a
  h_S1x2048 : 0 < S1x2048.numel
  slices_S512x2048_o0_0_S1x2048 : S512x2048.Slices ![0, 0] S1x2048
  reduces_S1x2048_S1 : S1x2048.Reduces [1] S1
  slices_S512x2048_o511_0_S1x2048 : S512x2048.Slices ![511, 0] S1x2048
  shapeCasts_S1x2048_S1x2048 : S1x2048.ShapeCasts S1x2048
  broadcasts_S1x1_S8x128 : S1x1.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S8x8x128_S8x1x1_0_0_0 : S8x8x128.Slices ![0, 0, 0] S8x1x1
  shapeCasts_S8x1x1_S8 : S8x1x1.ShapeCasts S8
  reducesTo_S8_S_d0 : S8.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x4096x2048.size a
  hwx0_0 : ∀ i : grid0.Coords, EltTy.bits .f32 = 32 ∨ (Rect.block (s := S8x4096x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x128.size a ≤ S8x8x128.size a
  hwx0_1 : ∀ i : grid0.Coords, EltTy.bits .f32 = 32 ∨ (Rect.block (s := S8x8x128) S1x8x128.size (cc0_transform_1 i) (hinb0_1 i)).WholeWords (EltTy.packing .f32)

variable [Facts₀]

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond3 i == 1#1) | ⟨_ + 2, h⟩ => absurd h (Nat.not_lt.2 (Nat.le_add_left _ _))

class Facts : Prop extends Facts₀ where

variable [Facts]
-- ==== ReferenceIdeal.lean ====
abbrev S8x4096x2048 : Shape := ⟨3, ![8, 4096, 2048]⟩
abbrev S_ : Shape := ⟨0, ![]⟩
abbrev S8x4096 : Shape := ⟨2, ![8, 4096]⟩
abbrev S8x4096x1 : Shape := ⟨3, ![8, 4096, 1]⟩
abbrev S8x4095x2048 : Shape := ⟨3, ![8, 4095, 2048]⟩
abbrev S8x4095 : Shape := ⟨2, ![8, 4095]⟩

abbrev nBuf : Space → Nat
  | .hbm => 22
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S8x4096x2048, .f32⟩
  | .hbm, ⟨2, _⟩ => ⟨S_, .f32⟩
  | .hbm, ⟨3, _⟩ => ⟨S8x4096, .f32⟩
  | .hbm, ⟨4, _⟩ => ⟨S8x4096x1, .f32⟩
  | .hbm, ⟨5, _⟩ => ⟨S8x4096x1, .f32⟩
  | .hbm, ⟨6, _⟩ => ⟨S_, .f32⟩
  | .hbm, ⟨7, _⟩ => ⟨S8x4096x1, .f32⟩
  | .hbm, ⟨8, _⟩ => ⟨S8x4096x1, .f32⟩
  | .hbm, ⟨9, _⟩ => ⟨S8x4096x2048, .f32⟩
  | .hbm, ⟨10, _⟩ => ⟨S8x4096x2048, .f32⟩
  | .hbm, ⟨11, _⟩ => ⟨S8x4095x2048, .f32⟩
  | .hbm, ⟨12, _⟩ => ⟨S8x4095x2048, .f32⟩
  | .hbm, ⟨13, _⟩ => ⟨S8x4095x2048, .f32⟩
  | .hbm, ⟨14, _⟩ => ⟨S_, .f32⟩
  | .hbm, ⟨15, _⟩ => ⟨S8x4095, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩

abbrev nD : Nat := 1
abbrev τ : Topo := Topo.v7x

variable {F : FTy → Type} [FloatOps F]

class Facts₀ : Prop where
  reducesTo_S8x4096x2048_S8x4096_d2 : S8x4096x2048.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x2048_0_1_2 : S8x4096x1.BroadcastsInDim S8x4096x2048 (![0, 1, 2] : Fin 3 → Fin S8x4096x2048.rank)
  slices_S8x4096x2048_S8x4095x2048_0_0_0 : S8x4096x2048.Slices ![0, 0, 0] S8x4095x2048
  slices_S8x4096x2048_S8x4095x2048_0_1_0 : S8x4096x2048.Slices ![0, 1, 0] S8x4095x2048
  reducesTo_S8x4095x2048_S8x4095_d2 : S8x4095x2048.ReducesTo [2] S8x4095
  reducesTo_S8x4095_S_d0_1 : S8x4095.ReducesTo [0, 1] S_

variable [Facts₀]

class Facts : Prop extends Facts₀ where

variable [Facts]
-- ==== Proof.BitsCases.lean ====
/-
  The grid of the one region is 8 × 8: point t is batch t / 8, chunk t % 8 (512 rows of the batch's 4096).
  The body branches three times on the chunk number alone: "first chunk" (the running sum is reset),
  "not the first chunk" (the pair straddling the previous chunk's last row and this chunk's first row is added),
  "last chunk" (the running sum is broadcast into the output block). Here the three conditions are decided over
  the grid in closed form, the three assignments the grid meets are named (first / middle / last chunk), and the
  two scratch buffers the kernel carries from point to point (the previous chunk's last normalised row, the
  running sum) are named as memrefs.
-/
import proofs.«115897_j40424232190289_1_alg».proof.Proof.Gen.Kernel.Frame
import proofs.«115897_j40424232190289_1_alg».proof.Proof.Gen.Kernel.Skeleton

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The three conditions, as the skeleton spells them, and their closed forms over the grid -/

/-- "This is the batch's first chunk" (the chunk coordinate is 0). -/
abbrev isFirst (i : grid0.Coords) : Prop :=
  (Scalar.cmpi .ne (Scalar.extui (Scalar.cmpi .eq (BitVec.ofNat 32 (i 1).val) 0#32)) 0#32) = 1#1
theorem isFirst_iff : ∀ t : Fin cfg0.N, isFirst (grid0.coords t) ↔ t.val % 8 = 0 :=
  (by decide +kernel : ∀ t : Fin grid0.N, isFirst (grid0.coords t) ↔ t.val % 8 = 0)

/-- "This is not the batch's first chunk" (the chunk coordinate is positive, signed). -/
abbrev isLater (i : grid0.Coords) : Prop :=
  (Scalar.cmpi .ne (Scalar.extui (Scalar.cmpi .sgt (BitVec.ofNat 32 (i 1).val) 0#32)) 0#32) = 1#1
theorem isLater_iff : ∀ t : Fin cfg0.N, isLater (grid0.coords t) ↔ ¬ t.val % 8 = 0 :=
  (by decide +kernel : ∀ t : Fin grid0.N, isLater (grid0.coords t) ↔ ¬ t.val % 8 = 0)

/-- "This is the batch's last chunk" (the chunk coordinate is 7). -/
abbrev isLast (i : grid0.Coords) : Prop := k0_cond3 i = 1#1
theorem isLast_iff : ∀ t : Fin cfg0.N, isLast (grid0.coords t) ↔ t.val % 8 = 7 :=
  (by decide +kernel : ∀ t : Fin grid0.N, isLast (grid0.coords t) ↔ t.val % 8 = 7)

/-! ## Where the output window is idle -/

/-- The input window is never idle. -/
theorem live_in : ∀ t : Fin cfg0.N, cfg0.idle 0 (grid0.coords t) = false := by decide +kernel
/-- Away from a batch's last chunk the output window is idle (nothing is stored into it) -/
theorem idle_out : ∀ t : Fin cfg0.N, ¬ isLast (grid0.coords t) → cfg0.idle 1 (grid0.coords t) = true := by decide +kernel
/-- and its block is not written back; -/
theorem noflush_out : ∀ t : Fin cfg0.N, ¬ isLast (grid0.coords t) → (cfg0.win 1).flush t = false := by decide +kernel
/-- at the last chunk it is live. -/
theorem live_out : ∀ t : Fin cfg0.N, isLast (grid0.coords t) → cfg0.idle 1 (grid0.coords t) = false := by decide +kernel

/-! ## The memrefs the body is called with -/

/-- One staging buffer of the output window, through which its contents are stated. -/
abbrev VO : View sig .tc .vmem S1x8x128 .f32 := (Memref.whole cc0_stg1_0 : Memref sig .tc .vmem S1x8x128 .f32).view
/-- Each window's current staging memref at point `t`, and its wholeness. -/
abbrev msIn (t : Fin cfg0.N) : Memref sig .tc .vmem S1x512x2048 .f32 := win0_0.stage (cfg0.slots t 0)
abbrev hsIn (t : Fin cfg0.N) : (msIn t).IsWhole := hstage0_0 ((cfg0.slots t 0).cast nbuf0_0)
abbrev msOut (t : Fin cfg0.N) : Memref sig .tc .vmem S1x8x128 .f32 := win0_1.stage (cfg0.slots t 1)
abbrev hsOut (t : Fin cfg0.N) : (msOut t).IsWhole := hstage0_1 ((cfg0.slots t 1).cast nbuf0_1)
/-- The scratch holding the previous chunk's last normalised row, -/
abbrev scRow : Memref sig .tc .vmem S1x2048 .f32 := Memref.whole cc0_scratch0
/-- and the scratch holding the batch's running sum. -/
abbrev scSum : Memref sig .tc .vmem S1x1 .f32 := Memref.whole cc0_scratch1
abbrev VRow : View sig .tc .vmem S1x2048 .f32 := scRow.view
abbrev VSum : View sig .tc .vmem S1x1 .f32 := scSum.view

/-- What the launch lends the region besides the windows: the two scratch buffers whole at some contents, and
    the generator register. -/
theorem PhiA_eq (c : Dev nD) :
    (Pipeline.ΦA spec0 c : sProp 𝕄)
      = iprop(iprop((∃ d, owns (c : Thread nD τ) scRow fullShare d) ∗ (∃ d, owns (c : Thread nD τ) scSum fullShare d)) ∗ (∃ r, prngReg c r)) := by
  unfold Pipeline.ΦA; rw [scopedRest0_eq]; simp only [scRow, scSum, owns_whole]; try rfl

end Cert.Kernel.Frm

end
-- ==== Proof.BitsRunFirst.lean ====
/-
  The body at a batch's FIRST chunk, run symbolically: the running sum is reset, the block is loaded, the inner
  pairs are added, the block's last normalised row is stored for the next chunk; nothing is stored into the output
  block. What the run leaves in the two scratch buffers is found as lists of stored pieces.
-/
import proofs.«115897_j40424232190289_1_alg».proof.Proof.BitsCases

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a first chunk: from the input block at `x0`, the output buffer at `xo` (handed back untouched) and the two
    scratch buffers at anything, the body runs to the end leaving each scratch with the pieces found here written. -/
noncomputable def runFirst (c : Dev nD) (i : grid0.Coords) (arg2 : Memref sig .tc .vmem S1x512x2048 .f32) (harg2 : arg2.IsWhole) (arg3 : Memref sig .tc .vmem S1x8x128 .f32) (harg3 : arg3.IsWhole) (arg4 : Memref sig .tc .vmem S1x2048 .f32) (harg4 : arg4.IsWhole) (arg5 : Memref sig .tc .vmem S1x1 .f32) (harg5 : arg5.IsWhole) (hc0 : isFirst i) (hc1 : ¬isLater i) (hc2 : ¬isLast i)
    (x0 : Vec F S1x512x2048 .f32) :
    Σ' (LRow : List (View.Piece (Elt F) S1x2048 .f32)), { LSum : List (View.Piece (Elt F) S1x1 .f32) //
      ∀ (xo : Vec F S1x8x128 .f32) (E : Set ℕ) (K : PUnit → sProp 𝕄),
        iprop(owns (c : Thread nD τ) arg2 fullShare x0 ∗ owns (c : Thread nD τ) arg3 fullShare xo ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare xo
                ∗ (∃ f, arg4.view.loc (c : Thread nD τ) ↦[arg4.view.set]{fullShare} arg4.view.writes (Elt F) f LRow)
                ∗ (∃ f, arg5.view.loc (c : Thread nD τ) ↦[arg5.view.set]{fullShare} arg5.view.writes (Elt F) f LSum)) -∗ K ⟨⟩))
          ⊢ wp frame (wpE (defs₀ (F := F)) Variants.none c none) E (cc0__coherence_kernel i arg2 harg2 arg3 harg3 arg4 harg4 arg5 harg5) K } := by
  refine ⟨?_, ?_, fun xo E K => ?run⟩
  case run =>
    simp only [cc0__coherence_kernel_eq_skeleton]; unfold cc0__coherence_kernel_skel
    unfold owns
    iintro ⟨⟨%f0, %hf0, H0⟩, ⟨%f1, %hf1, H1⟩, ⟨%dr, %fr, -, HR⟩, ⟨%ds, %fs, -, HS⟩, Hk⟩
    obtain rfl := harg2.eq_unread hf0; obtain rfl := harg3.eq_unread hf1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [HR]
    · iexists _; iexact HR
    iexists _; iexact HS

end Cert.Kernel.Frm

end
-- ==== Proof.BitsRunMid.lean ====
/-
  The body at a chunk that is neither a batch's first nor its last, run symbolically: the previous chunk's last
  normalised row and the running sum are read from the scratch buffers at the contents the point before left
  (`xr`, `xs`); the straddling pair and then the inner pairs are added; the block's last normalised row replaces
  the kept row; nothing is stored into the output block.
-/
import proofs.«115897_j40424232190289_1_alg».proof.Proof.BitsRunFirst

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runMid (c : Dev nD) (i : grid0.Coords) (arg2 : Memref sig .tc .vmem S1x512x2048 .f32) (harg2 : arg2.IsWhole) (arg3 : Memref sig .tc .vmem S1x8x128 .f32) (harg3 : arg3.IsWhole) (arg4 : Memref sig .tc .vmem S1x2048 .f32) (harg4 : arg4.IsWhole) (arg5 : Memref sig .tc .vmem S1x1 .f32) (harg5 : arg5.IsWhole) (hc0 : ¬isFirst i) (hc1 : isLater i) (hc2 : ¬isLast i)
    (x0 : Vec F S1x512x2048 .f32) (xr : Vec F S1x2048 .f32) (xs : Vec F S1x1 .f32) :
    Σ' (LRow : List (View.Piece (Elt F) S1x2048 .f32)), { LSum : List (View.Piece (Elt F) S1x1 .f32) //
      ∀ (xo : Vec F S1x8x128 .f32) (E : Set ℕ) (K : PUnit → sProp 𝕄),
        iprop(owns (c : Thread nD τ) arg2 fullShare x0 ∗ owns (c : Thread nD τ) arg3 fullShare xo ∗ owns (c : Thread nD τ) arg4 fullShare xr ∗ owns (c : Thread nD τ) arg5 fullShare xs
            ∗ (iprop(owns (c : Thread nD τ) arg2 fullShare x0 ∗ owns (c : Thread nD τ) arg3 fullShare xo
                ∗ (∃ f, arg4.view.loc (c : Thread nD τ) ↦[arg4.view.set]{fullShare} arg4.view.writes (Elt F) f LRow)
                ∗ (∃ f, arg5.view.loc (c : Thread nD τ) ↦[arg5.view.set]{fullShare} arg5.view.writes (Elt F) f LSum)) -∗ K ⟨⟩))
          ⊢ wp frame (wpE (defs₀ (F := F)) Variants.none c none) E (cc0__coherence_kernel i arg2 harg2 arg3 harg3 arg4 harg4 arg5 harg5) K } := by
  refine ⟨?_, ?_, fun xo E K => ?run⟩
  case run =>
    simp only [cc0__coherence_kernel_eq_skeleton]; unfold cc0__coherence_kernel_skel
    unfold owns
    iintro ⟨⟨%f0, %hf0, H0⟩, ⟨%f1, %hf1, H1⟩, ⟨%fr, %hfr, HR⟩, ⟨%fs, %hfs, HS⟩, Hk⟩
    obtain rfl := harg2.eq_unread hf0; obtain rfl := harg3.eq_unread hf1
    obtain rfl := harg4.eq_unread hfr; obtain rfl := harg5.eq_unread hfs
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [HR]
    · iexists _; iexact HR
    iexists _; iexact HS

end Cert.Kernel.Frm

end
-- ==== Proof.BitsRunLast.lean ====
/-
  The body at a batch's LAST chunk, run symbolically: as at a middle chunk, and then the running sum, now the
  batch's whole sum, is broadcast into the output block (whose buffer is taken at anything and left with the
  pieces found here written).
-/
import proofs.«115897_j40424232190289_1_alg».proof.Proof.BitsRunMid

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runLast (c : Dev nD) (i : grid0.Coords) (arg2 : Memref sig .tc .vmem S1x512x2048 .f32) (harg2 : arg2.IsWhole) (arg3 : Memref sig .tc .vmem S1x8x128 .f32) (harg3 : arg3.IsWhole) (arg4 : Memref sig .tc .vmem S1x2048 .f32) (harg4 : arg4.IsWhole) (arg5 : Memref sig .tc .vmem S1x1 .f32) (harg5 : arg5.IsWhole) (hc0 : ¬isFirst i) (hc1 : isLater i) (hc2 : isLast i)
    (x0 : Vec F S1x512x2048 .f32) (xr : Vec F S1x2048 .f32) (xs : Vec F S1x1 .f32) :
    Σ' (LOut : List (View.Piece (Elt F) S1x8x128 .f32)) (LRow : List (View.Piece (Elt F) S1x2048 .f32)), { LSum : List (View.Piece (Elt F) S1x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xr ∗ owns (c : Thread nD τ) arg5 fullShare xs
            ∗ (iprop(owns (c : Thread nD τ) arg2 fullShare x0
                ∗ (∃ f, arg3.view.loc (c : Thread nD τ) ↦[arg3.view.set]{fullShare} arg3.view.writes (Elt F) f LOut)
                ∗ (∃ f, arg4.view.loc (c : Thread nD τ) ↦[arg4.view.set]{fullShare} arg4.view.writes (Elt F) f LRow)
                ∗ (∃ f, arg5.view.loc (c : Thread nD τ) ↦[arg5.view.set]{fullShare} arg5.view.writes (Elt F) f LSum)) -∗ K ⟨⟩))
          ⊢ wp frame (wpE (defs₀ (F := F)) Variants.none c none) E (cc0__coherence_kernel i arg2 harg2 arg3 harg3 arg4 harg4 arg5 harg5) K } := by
  refine ⟨?_, ?_, ?_, fun E K => ?run⟩
  case run =>
    simp only [cc0__coherence_kernel_eq_skeleton]; unfold cc0__coherence_kernel_skel
    unfold owns
    iintro ⟨⟨%f0, %hf0, H0⟩, ⟨%d1, %f1, -, H1⟩, ⟨%fr, %hfr, HR⟩, ⟨%fs, %hfs, HS⟩, Hk⟩
    obtain rfl := harg2.eq_unread hf0
    obtain rfl := harg4.eq_unread hfr; obtain rfl := harg5.eq_unread hfs
    sl_exec (disch := first | exact hc0 | exact hc1 | exact hc2)
    sl_step
    iapply Hk
    isplitl [H0]
    · iexists _; isplitr; · ipureintro; exact harg2.read_unread _
      iexact H0
    isplitl [H1]
    · iexists _; iexact H1
    isplitl [HR]
    · iexists _; iexact HR
    iexists _; iexact HS

end Cert.Kernel.Frm

end
-- ==== Proof.BitsOuts.lean ====
/-
  What each grid point leaves behind. The three runs are specialised to the memrefs the pipeline calls the body
  with at point `t`; the pieces each run stores are read back as the contents of the kept-row scratch, the
  running-sum scratch and (at a last chunk) the output block; and the contents after point n are defined by
  recursion on n: a first chunk starts afresh, a later chunk continues from what the point before left.
-/
import proofs.«115897_j40424232190289_1_alg».proof.Proof.BitsRunLast

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The runs at a point -/

theorem first_conds (t : Fin cfg0.N) (h0 : t.val % 8 = 0) :
    isFirst (grid0.coords t) ∧ ¬isLater (grid0.coords t) ∧ ¬isLast (grid0.coords t) :=
  ⟨(isFirst_iff t).mpr h0, fun h => (isLater_iff t).mp h h0, fun h => by have := (isLast_iff t).mp h; omega⟩
theorem mid_conds (t : Fin cfg0.N) (h0 : ¬t.val % 8 = 0) (h7 : ¬t.val % 8 = 7) :
    ¬isFirst (grid0.coords t) ∧ isLater (grid0.coords t) ∧ ¬isLast (grid0.coords t) :=
  ⟨fun h => h0 ((isFirst_iff t).mp h), (isLater_iff t).mpr h0, fun h => h7 ((isLast_iff t).mp h)⟩
theorem last_conds (t : Fin cfg0.N) (h0 : ¬t.val % 8 = 0) (h7 : t.val % 8 = 7) :
    ¬isFirst (grid0.coords t) ∧ isLater (grid0.coords t) ∧ isLast (grid0.coords t) :=
  ⟨fun h => h0 ((isFirst_iff t).mp h), (isLater_iff t).mpr h0, (isLast_iff t).mpr h7⟩

/-- The first-chunk run at point `t`. -/
noncomputable abbrev firstAt (c : Dev nD) (t : Fin cfg0.N) (h0 : t.val % 8 = 0) (x0 : Vec F S1x512x2048 .f32) :=
  runFirst (F := F) c (grid0.coords t) (msIn t) (hsIn t) (msOut t) (hsOut t) scRow (Memref.isWhole_whole _) scSum (Memref.isWhole_whole _) (first_conds t h0).1 (first_conds t h0).2.1 (first_conds t h0).2.2 x0
/-- The middle-chunk run at point `t`. -/
noncomputable abbrev midAt (c : Dev nD) (t : Fin cfg0.N) (h0 : ¬t.val % 8 = 0) (h7 : ¬t.val % 8 = 7) (x0 : Vec F S1x512x2048 .f32) (xr : Vec F S1x2048 .f32) (xs : Vec F S1x1 .f32) :=
  runMid (F := F) c (grid0.coords t) (msIn t) (hsIn t) (msOut t) (hsOut t) scRow (Memref.isWhole_whole _) scSum (Memref.isWhole_whole _) (mid_conds t h0 h7).1 (mid_conds t h0 h7).2.1 (mid_conds t h0 h7).2.2 x0 xr xs
/-- The last-chunk run at point `t`. -/
noncomputable abbrev lastAt (c : Dev nD) (t : Fin cfg0.N) (h0 : ¬t.val % 8 = 0) (h7 : t.val % 8 = 7) (x0 : Vec F S1x512x2048 .f32) (xr : Vec F S1x2048 .f32) (xs : Vec F S1x1 .f32) :=
  runLast (F := F) c (grid0.coords t) (msIn t) (hsIn t) (msOut t) (hsOut t) scRow (Memref.isWhole_whole _) scSum (Memref.isWhole_whole _) (last_conds t h0 h7).1 (last_conds t h0 h7).2.1 (last_conds t h0 h7).2.2 x0 xr xs

/-! ## The stored pieces cover their buffers -/

theorem coverRowFirst (c : Dev nD) (t : Fin cfg0.N) (h0 : t.val % 8 = 0) (x0 : Vec F S1x512x2048 .f32) (y : S1x2048.Idx) :
    ∃ pc ∈ (firstAt c t h0 x0).1, y ∈ pc.1.set :=
  View.cover_of_tiledL (firstAt c t h0 x0).1 S1x2048.size (by sl_kernel_rfl) y
theorem coverSumFirst (c : Dev nD) (t : Fin cfg0.N) (h0 : t.val % 8 = 0) (x0 : Vec F S1x512x2048 .f32) (y : S1x1.Idx) :
    ∃ pc ∈ (firstAt c t h0 x0).2.1, y ∈ pc.1.set :=
  View.cover_of_tiledL (firstAt c t h0 x0).2.1 S1x1.size (by sl_kernel_rfl) y
theorem coverRowMid (c : Dev nD) (t : Fin cfg0.N) (h0 : ¬t.val % 8 = 0) (h7 : ¬t.val % 8 = 7) (x0 : Vec F S1x512x2048 .f32) (xr : Vec F S1x2048 .f32) (xs : Vec F S1x1 .f32) (y : S1x2048.Idx) :
    ∃ pc ∈ (midAt c t h0 h7 x0 xr xs).1, y ∈ pc.1.set :=
  View.cover_of_tiledL (midAt c t h0 h7 x0 xr xs).1 S1x2048.size (by sl_kernel_rfl) y
theorem coverSumMid (c : Dev nD) (t : Fin cfg0.N) (h0 : ¬t.val % 8 = 0) (h7 : ¬t.val % 8 = 7) (x0 : Vec F S1x512x2048 .f32) (xr : Vec F S1x2048 .f32) (xs : Vec F S1x1 .f32) (y : S1x1.Idx) :
    ∃ pc ∈ (midAt c t h0 h7 x0 xr xs).2.1, y ∈ pc.1.set :=
  View.cover_of_tiledL (midAt c t h0 h7 x0 xr xs).2.1 S1x1.size (by sl_kernel_rfl) y
theorem coverOutLast (c : Dev nD) (t : Fin cfg0.N) (h0 : ¬t.val % 8 = 0) (h7 : t.val % 8 = 7) (x0 : Vec F S1x512x2048 .f32) (xr : Vec F S1x2048 .f32) (xs : Vec F S1x1 .f32) (y : S1x8x128.Idx) :
    ∃ pc ∈ (lastAt c t h0 h7 x0 xr xs).1, y ∈ pc.1.set :=
  View.cover_of_tiledL (lastAt c t h0 h7 x0 xr xs).1 S1x8x128.size (by sl_kernel_rfl) y
theorem coverRowLast (c : Dev nD) (t : Fin cfg0.N) (h0 : ¬t.val % 8 = 0) (h7 : t.val % 8 = 7) (x0 : Vec F S1x512x2048 .f32) (xr : Vec F S1x2048 .f32) (xs : Vec F S1x1 .f32) (y : S1x2048.Idx) :
    ∃ pc ∈ (lastAt c t h0 h7 x0 xr xs).2.1, y ∈ pc.1.set :=
  View.cover_of_tiledL (lastAt c t h0 h7 x0 xr xs).2.1 S1x2048.size (by sl_kernel_rfl) y
theorem coverSumLast (c : Dev nD) (t : Fin cfg0.N) (h0 : ¬t.val % 8 = 0) (h7 : t.val % 8 = 7) (x0 : Vec F S1x512x2048 .f32) (xr : Vec F S1x2048 .f32) (xs : Vec F S1x1 .f32) (y : S1x1.Idx) :
    ∃ pc ∈ (lastAt c t h0 h7 x0 xr xs).2.2.1, y ∈ pc.1.set :=
  View.cover_of_tiledL (lastAt c t h0 h7 x0 xr xs).2.2.1 S1x1.size (by sl_kernel_rfl) y

/-! ## The pieces read back -/

/-- A placeholder for the output buffer's contents at the points that store nothing into it (nothing reads it). -/
def noOut : Vec F S1x8x128 .f32 := VO.read (Elt F) VO.junk
def noRow : Vec F S1x2048 .f32 := VRow.read (Elt F) VRow.junk
def noSum : Vec F S1x1 .f32 := VSum.read (Elt F) VSum.junk

def rowFirst (c : Dev nD) (t : Fin cfg0.N) (h0 : t.val % 8 = 0) (x0 : Vec F S1x512x2048 .f32) : Vec F S1x2048 .f32 :=
  VRow.read (Elt F) (VRow.writes (Elt F) VRow.junk (firstAt c t h0 x0).1)
def sumFirst (c : Dev nD) (t : Fin cfg0.N) (h0 : t.val % 8 = 0) (x0 : Vec F S1x512x2048 .f32) : Vec F S1x1 .f32 :=
  VSum.read (Elt F) (VSum.writes (Elt F) VSum.junk (firstAt c t h0 x0).2.1)
def rowMid (c : Dev nD) (t : Fin cfg0.N) (h0 : ¬t.val % 8 = 0) (h7 : ¬t.val % 8 = 7) (x0 : Vec F S1x512x2048 .f32) (xr : Vec F S1x2048 .f32) (xs : Vec F S1x1 .f32) : Vec F S1x2048 .f32 :=
  VRow.read (Elt F) (VRow.writes (Elt F) VRow.junk (midAt c t h0 h7 x0 xr xs).1)
def sumMid (c : Dev nD) (t : Fin cfg0.N) (h0 : ¬t.val % 8 = 0) (h7 : ¬t.val % 8 = 7) (x0 : Vec F S1x512x2048 .f32) (xr : Vec F S1x2048 .f32) (xs : Vec F S1x1 .f32) : Vec F S1x1 .f32 :=
  VSum.read (Elt F) (VSum.writes (Elt F) VSum.junk (midAt c t h0 h7 x0 xr xs).2.1)
def outLast (c : Dev nD) (t : Fin cfg0.N) (h0 : ¬t.val % 8 = 0) (h7 : t.val % 8 = 7) (x0 : Vec F S1x512x2048 .f32) (xr : Vec F S1x2048 .f32) (xs : Vec F S1x1 .f32) : Vec F S1x8x128 .f32 :=
  VO.read (Elt F) (VO.writes (Elt F) VO.junk (lastAt c t h0 h7 x0 xr xs).1)
def rowLast (c : Dev nD) (t : Fin cfg0.N) (h0 : ¬t.val % 8 = 0) (h7 : t.val % 8 = 7) (x0 : Vec F S1x512x2048 .f32) (xr : Vec F S1x2048 .f32) (xs : Vec F S1x1 .f32) : Vec F S1x2048 .f32 :=
  VRow.read (Elt F) (VRow.writes (Elt F) VRow.junk (lastAt c t h0 h7 x0 xr xs).2.1)
def sumLast (c : Dev nD) (t : Fin cfg0.N) (h0 : ¬t.val % 8 = 0) (h7 : t.val % 8 = 7) (x0 : Vec F S1x512x2048 .f32) (xr : Vec F S1x2048 .f32) (xs : Vec F S1x1 .f32) : Vec F S1x1 .f32 :=
  VSum.read (Elt F) (VSum.writes (Elt F) VSum.junk (lastAt c t h0 h7 x0 xr xs).2.2.1)

/-! ## Point by point -/

/-- What point `t` leaves (output block, kept row, running sum), given the block `x0` it reads and what the point
    before left in the two scratch buffers. -/
def stepAt (c : Dev nD) (t : Fin cfg0.N) (x0 : Vec F S1x512x2048 .f32) (prev : Vec F S1x2048 .f32 × Vec F S1x1 .f32) :
    Vec F S1x8x128 .f32 × Vec F S1x2048 .f32 × Vec F S1x1 .f32 :=
  if h0 : t.val % 8 = 0 then (noOut, rowFirst c t h0 x0, sumFirst c t h0 x0)
  else if h7 : t.val % 8 = 7 then (outLast c t h0 h7 x0 prev.1 prev.2, rowLast c t h0 h7 x0 prev.1 prev.2, sumLast c t h0 h7 x0 prev.1 prev.2)
  else (noOut, rowMid c t h0 h7 x0 prev.1 prev.2, sumMid c t h0 h7 x0 prev.1 prev.2)

/-- What the buffers hold after the body at position `n`, by recursion on `n`. -/
def ptsAt (c : Dev nD) : (n : ℕ) → n < cfg0.N → Vec F S1x8x128 .f32 × Vec F S1x2048 .f32 × Vec F S1x1 .f32
  | 0, hn => stepAt c ⟨0, hn⟩ (iblk m c 0 ⟨0, hn⟩) (noRow, noSum)
  | n + 1, hn => stepAt c ⟨n + 1, hn⟩ (iblk m c 0 ⟨n + 1, hn⟩) (ptsAt c n (Nat.lt_of_succ_lt hn)).2

/-- What the point before `t` left in the scratch buffers (placeholders before the first point). -/
def prevAt (c : Dev nD) (t : Fin cfg0.N) : Vec F S1x2048 .f32 × Vec F S1x1 .f32 :=
  if hz : t.val = 0 then (noRow, noSum) else (ptsAt m c (t.val - 1) (Nat.lt_of_le_of_lt (Nat.sub_le _ _) t.isLt)).2

theorem ptsAt_eq (c : Dev nD) (t : Fin cfg0.N) : ptsAt m c t.val t.isLt = stepAt c t (iblk m c 0 t) (prevAt m c t) := by
  obtain ⟨n, hn⟩ := t
  cases n with
  | zero => rfl
  | succ n => rfl

end Cert.Kernel.Frm

end
-- ==== Proof.BitsBody.lean ====
/-
  The region's frame. The proof data of the one pipeline: the arrays as the region finds them; after the body at
  point t the input buffer still at its block and the output buffer at what the recursion says; between points the
  two scratch buffers are owned at what the point before left in them (before the first point: at anything).
  The body obligation is the three symbolic runs, chosen by the chunk number; the launch then gives the run of
  @main with every array of the pipeline named, and from it the frame claim.
-/
import proofs.«115897_j40424232190289_1_alg».proof.Proof.BitsOuts

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region invariant before position `n`: before the first point what the launch lends; afterwards the two
    scratch buffers at what point `n - 1` left, and the generator register at some state. -/
def PhiS (c : Dev nD) : (n : ℕ) → n ≤ cfg0.N → sProp 𝕄
  | 0, _ => Pipeline.ΦA spec0 c
  | n + 1, hn => iprop(iprop(owns (c : Thread nD τ) scRow fullShare ((ptsAt m c n hn).2.1) ∗ owns (c : Thread nD τ) scSum fullShare ((ptsAt m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scRow fullShare ((ptsAt m c n hn).2.1) ∗ owns (c : Thread nD τ) scSum fullShare ((ptsAt m c n hn).2.2)) ∗ (∃ r, prngReg c r)) := rfl

theorem PhiS_pos (c : Dev nD) (n : ℕ) (h : n ≤ cfg0.N) (hz : n ≠ 0) :
    PhiS m c n h = iprop(iprop(owns (c : Thread nD τ) scRow fullShare ((ptsAt m c (n - 1) (by omega)).2.1) ∗ owns (c : Thread nD τ) scSum fullShare ((ptsAt m c (n - 1) (by omega)).2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (ptsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_in (c : Dev nD) (t : Fin cfg0.N) : (dats m 0 c).after 0 t = iblk m c 0 t := by dsimp only [dats]
theorem after_out (c : Dev nD) (t : Fin cfg0.N) : (dats m 0 c).after 1 t = (ptsAt m c t.val t.isLt).1 := by dsimp only [dats]

/-- The input's current staging buffer holds its block at every point. -/
theorem before_in (c : Dev nD) (t : Fin cfg0.N) (d) : (dats m 0 c).before 0 t d = iblk m c 0 t :=
  before0_0_of m (dats m 0 c) (A_eq m c 0) (after_in m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (msIn t) fullShare ((dats m 0 c).before 0 t d))
    ∗ (∃ d, owns (c : Thread nD τ) (msOut t) fullShare ((dats m 0 c).before 1 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

theorem leaves_in (c : Dev nD) (t : Fin cfg0.N) :
    (dats m 0 c).leavesExact 0 t = owns (c : Thread nD τ) (msIn t) fullShare (iblk m c 0 t) := by
  rw [show (dats m 0 c).leavesExact 0 t = owns (c : Thread nD τ) (msIn t) fullShare ((dats m 0 c).after 0 t) from by
    unfold Dat.leavesExact; rw [live_in t], after_in]

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).owesAt () t.succ = (dats m 0 c).owesAt () t.castSucc from rfl]
  rw [show (dats m 0 c).Φ t.succ = PhiS m c (t.val + 1) t.isLt from rfl, PhiS_succ]
  rw [leaves_in]
  have hN : t.val < 64 := lt_of_lt_of_eq t.isLt (show cfg0.N = 64 from N_0)
  rw [ptsAt_eq m c t]
  unfold stepAt
  by_cases h0 : t.val % 8 = 0
  · rw [dif_pos h0]; dsimp only
    rw [Dat.leavesExact_idle (dats m 0 c) 1 t (idle_out t (first_conds t h0).2.2) (noflush_out t (first_conds t h0).2.2)]
    unfold rowFirst sumFirst
    by_cases hz : t.val = 0
    · rw [PhiS_castSucc m c t, PhiS_zero m c _ _ hz, PhiA_eq]
      iintro ⟨⟨⟨HR, HS⟩, Hg⟩, Ho, ⟨%d0, H0⟩, ⟨%d1, H1⟩⟩
      iapply ((firstAt c t h0 (iblk m c 0 t)).2.2 _ Set.univ _)
      isplitl [H0]; · iexact H0
      isplitl [H1]; · iexact H1
      isplitl [HR]; · iexact HR
      isplitl [HS]; · iexact HS
      iintro ⟨H0, H1, ⟨%er, HR⟩, ⟨%es, HS⟩⟩
      isplitl [HR HS Hg]
      · isplitl [HR HS]
        · isplitl [HR]
          · unfold owns; iexists _; isplitr
            swap; · iexact HR
            ipureintro; exact View.read_writes_of_cover _ _ _ _ _ (coverRowFirst c t h0 _)
          · unfold owns; iexists _; isplitr
            swap; · iexact HS
            ipureintro; exact View.read_writes_of_cover _ _ _ _ _ (coverSumFirst c t h0 _)
        iexact Hg
      isplitl [Ho]; · iexact Ho
      isplitl [H0]; · iexact H0
      iexists _; iexact H1
    · rw [PhiS_castSucc m c t, PhiS_pos m c _ _ hz]
      iintro ⟨⟨⟨HR, HS⟩, Hg⟩, Ho, ⟨%d0, H0⟩, ⟨%d1, H1⟩⟩
      iapply ((firstAt c t h0 (iblk m c 0 t)).2.2 _ Set.univ _)
      isplitl [H0]; · iexact H0
      isplitl [H1]; · iexact H1
      isplitl [HR]; · iexists _; iexact HR
      isplitl [HS]; · iexists _; iexact HS
      iintro ⟨H0, H1, ⟨%er, HR⟩, ⟨%es, HS⟩⟩
      isplitl [HR HS Hg]
      · isplitl [HR HS]
        · isplitl [HR]
          · unfold owns; iexists _; isplitr
            swap; · iexact HR
            ipureintro; exact View.read_writes_of_cover _ _ _ _ _ (coverRowFirst c t h0 _)
          · unfold owns; iexists _; isplitr
            swap; · iexact HS
            ipureintro; exact View.read_writes_of_cover _ _ _ _ _ (coverSumFirst c t h0 _)
        iexact Hg
      isplitl [Ho]; · iexact Ho
      isplitl [H0]; · iexact H0
      iexists _; iexact H1
  · rw [dif_neg h0]
    have hz : t.val ≠ 0 := fun h => h0 (by rw [h])
    have hprev : prevAt m c t = (ptsAt m c (t.val - 1) (Nat.lt_of_le_of_lt (Nat.sub_le _ _) t.isLt)).2 := by
      unfold prevAt; rw [dif_neg hz]
    by_cases h7 : t.val % 8 = 7
    · rw [dif_pos h7]; dsimp only
      rw [show (dats m 0 c).leavesExact 1 t = owns (c : Thread nD τ) (msOut t) fullShare ((dats m 0 c).after 1 t) from by
        unfold Dat.leavesExact; rw [live_out t (last_conds t h0 h7).2.2], after_out, ptsAt_eq m c t]
      unfold stepAt; rw [dif_neg h0, dif_pos h7]; dsimp only
      unfold outLast rowLast sumLast
      rw [PhiS_castSucc m c t, PhiS_pos m c _ _ hz, hprev]
      iintro ⟨⟨⟨HR, HS⟩, Hg⟩, Ho, ⟨%d0, H0⟩, ⟨%d1, H1⟩⟩
      iapply ((lastAt c t h0 h7 (iblk m c 0 t) _ _).2.2.2 Set.univ _)
      isplitl [H0]; · iexact H0
      isplitl [H1]; · iexists _; iexact H1
      isplitl [HR]; · iexact HR
      isplitl [HS]; · iexact HS
      iintro ⟨H0, ⟨%e1, H1⟩, ⟨%er, HR⟩, ⟨%es, HS⟩⟩
      isplitl [HR HS Hg]
      · isplitl [HR HS]
        · isplitl [HR]
          · unfold owns; iexists _; isplitr
            swap; · iexact HR
            ipureintro; exact View.read_writes_of_cover _ _ _ _ _ (coverRowLast c t h0 h7 _ _ _)
          · unfold owns; iexists _; isplitr
            swap; · iexact HS
            ipureintro; exact View.read_writes_of_cover _ _ _ _ _ (coverSumLast c t h0 h7 _ _ _)
        iexact Hg
      isplitl [Ho]; · iexact Ho
      isplitl [H0]; · iexact H0
      unfold owns; iexists _; isplitr
      swap; · iexact H1
      ipureintro; exact View.read_writes_of_cover _ _ _ _ _ (coverOutLast c t h0 h7 _ _ _)
    · rw [dif_neg h7]; dsimp only
      rw [Dat.leavesExact_idle (dats m 0 c) 1 t (idle_out t (mid_conds t h0 h7).2.2) (noflush_out t (mid_conds t h0 h7).2.2)]
      unfold rowMid sumMid
      rw [PhiS_castSucc m c t, PhiS_pos m c _ _ hz, hprev]
      iintro ⟨⟨⟨HR, HS⟩, Hg⟩, Ho, ⟨%d0, H0⟩, ⟨%d1, H1⟩⟩
      iapply ((midAt c t h0 h7 (iblk m c 0 t) _ _).2.2 _ Set.univ _)
      isplitl [H0]; · iexact H0
      isplitl [H1]; · iexact H1
      isplitl [HR]; · iexact HR
      isplitl [HS]; · iexact HS
      iintro ⟨H0, H1, ⟨%er, HR⟩, ⟨%es, HS⟩⟩
      isplitl [HR HS Hg]
      · isplitl [HR HS]
        · isplitl [HR]
          · unfold owns; iexists _; isplitr
            swap; · iexact HR
            ipureintro; exact View.read_writes_of_cover _ _ _ _ _ (coverRowMid c t h0 h7 _ _ _)
          · unfold owns; iexists _; isplitr
            swap; · iexact HS
            ipureintro; exact View.read_writes_of_cover _ _ _ _ _ (coverSumMid c t h0 h7 _ _ _)
        iexact Hg
      isplitl [Ho]; · iexact Ho
      isplitl [H0]; · iexact H0
      iexists _; iexact H1

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HR, HS⟩, Hg⟩
  isplitl [HR HS]
  · isplitl [HR]
    · iexists _; iexact HR
    · iexists _; iexact HS
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of @main terminates, and in every final state each array of the pipeline holds what
    the library computes from the proof data, every other unscoped buffer what the host lines after the region leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Frm

end
-- ==== Proof.Cases.lean ====
/-
  The grid of the one region is 8 × 8: point t is batch t / 8, chunk t % 8 (512 rows of the batch's 4096).
  The body branches three times on the chunk number alone: "first chunk" (the running sum is reset),
  "not the first chunk" (the pair straddling the previous chunk's last row and this chunk's first row is added),
  "last chunk" (the running sum is broadcast into the output block). Here the three conditions are decided over
  the grid in closed form, the three assignments the grid meets are named (first / middle / last chunk), and the
  two scratch buffers the kernel carries from point to point (the previous chunk's last normalised row, the
  running sum) are named as memrefs.
-/
import proofs.«115897_j40424232190289_1_alg».proof.Proof.Gen.KernelIdeal.Frame
import proofs.«115897_j40424232190289_1_alg».proof.Proof.Gen.KernelIdeal.Skeleton

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The three conditions, as the skeleton spells them, and their closed forms over the grid -/

/-- "This is the batch's first chunk" (the chunk coordinate is 0). -/
abbrev isFirst (i : grid0.Coords) : Prop :=
  (Scalar.cmpi .ne (Scalar.extui (Scalar.cmpi .eq (BitVec.ofNat 32 (i 1).val) 0#32)) 0#32) = 1#1
theorem isFirst_iff : ∀ t : Fin cfg0.N, isFirst (grid0.coords t) ↔ t.val % 8 = 0 :=
  (by decide +kernel : ∀ t : Fin grid0.N, isFirst (grid0.coords t) ↔ t.val % 8 = 0)

/-- "This is not the batch's first chunk" (the chunk coordinate is positive, signed). -/
abbrev isLater (i : grid0.Coords) : Prop :=
  (Scalar.cmpi .ne (Scalar.extui (Scalar.cmpi .sgt (BitVec.ofNat 32 (i 1).val) 0#32)) 0#32) = 1#1
theorem isLater_iff : ∀ t : Fin cfg0.N, isLater (grid0.coords t) ↔ ¬ t.val % 8 = 0 :=
  (by decide +kernel : ∀ t : Fin grid0.N, isLater (grid0.coords t) ↔ ¬ t.val % 8 = 0)

/-- "This is the batch's last chunk" (the chunk coordinate is 7). -/
abbrev isLast (i : grid0.Coords) : Prop := k0_cond3 i = 1#1
theorem isLast_iff : ∀ t : Fin cfg0.N, isLast (grid0.coords t) ↔ t.val % 8 = 7 :=
  (by decide +kernel : ∀ t : Fin grid0.N, isLast (grid0.coords t) ↔ t.val % 8 = 7)

/-! ## Where the output window is idle -/

/-- The input window is never idle. -/
theorem live_in : ∀ t : Fin cfg0.N, cfg0.idle 0 (grid0.coords t) = false := by decide +kernel
/-- Away from a batch's last chunk the output window is idle (nothing is stored into it) -/
theorem idle_out : ∀ t : Fin cfg0.N, ¬ isLast (grid0.coords t) → cfg0.idle 1 (grid0.coords t) = true := by decide +kernel
/-- and its block is not written back; -/
theorem noflush_out : ∀ t : Fin cfg0.N, ¬ isLast (grid0.coords t) → (cfg0.win 1).flush t = false := by decide +kernel
/-- at the last chunk it is live. -/
theorem live_out : ∀ t : Fin cfg0.N, isLast (grid0.coords t) → cfg0.idle 1 (grid0.coords t) = false := by decide +kernel

/-! ## The memrefs the body is called with -/

/-- One staging buffer of the output window, through which its contents are stated. -/
abbrev VO : View sig .tc .vmem S1x8x128 .f32 := (Memref.whole cc0_stg1_0 : Memref sig .tc .vmem S1x8x128 .f32).view
/-- Each window's current staging memref at point `t`, and its wholeness. -/
abbrev msIn (t : Fin cfg0.N) : Memref sig .tc .vmem S1x512x2048 .f32 := win0_0.stage (cfg0.slots t 0)
abbrev hsIn (t : Fin cfg0.N) : (msIn t).IsWhole := hstage0_0 ((cfg0.slots t 0).cast nbuf0_0)
abbrev msOut (t : Fin cfg0.N) : Memref sig .tc .vmem S1x8x128 .f32 := win0_1.stage (cfg0.slots t 1)
abbrev hsOut (t : Fin cfg0.N) : (msOut t).IsWhole := hstage0_1 ((cfg0.slots t 1).cast nbuf0_1)
/-- The scratch holding the previous chunk's last normalised row, -/
abbrev scRow : Memref sig .tc .vmem S1x2048 .f32 := Memref.whole cc0_scratch0
/-- and the scratch holding the batch's running sum. -/
abbrev scSum : Memref sig .tc .vmem S1x1 .f32 := Memref.whole cc0_scratch1
abbrev VRow : View sig .tc .vmem S1x2048 .f32 := scRow.view
abbrev VSum : View sig .tc .vmem S1x1 .f32 := scSum.view

/-- What the launch lends the region besides the windows: the two scratch buffers whole at some contents, and
    the generator register. -/
theorem PhiA_eq (c : Dev nD) :
    (Pipeline.ΦA spec0 c : sProp 𝕄)
      = iprop(iprop((∃ d, owns (c : Thread nD τ) scRow fullShare d) ∗ (∃ d, owns (c : Thread nD τ) scSum fullShare d)) ∗ (∃ r, prngReg c r)) := by
  unfold Pipeline.ΦA; rw [scopedRest0_eq]; simp only [scRow, scSum, owns_whole]; try rfl

end Cert.KernelIdeal.Frm

end
-- ==== Proof.RunFirst.lean ====
/-
  The body at a batch's FIRST chunk, run symbolically: the running sum is reset, the block is loaded, the inner
  pairs are added, the block's last normalised row is stored for the next chunk; nothing is stored into the output
  block. What the run leaves in the two scratch buffers is found as lists of stored pieces.
-/
import proofs.«115897_j40424232190289_1_alg».proof.Proof.Cases

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a first chunk: from the input block at `x0`, the output buffer at `xo` (handed back untouched) and the two
    scratch buffers at anything, the body runs to the end leaving each scratch with the pieces found here written. -/
noncomputable def runFirst (c : Dev nD) (i : grid0.Coords) (arg2 : Memref sig .tc .vmem S1x512x2048 .f32) (harg2 : arg2.IsWhole) (arg3 : Memref sig .tc .vmem S1x8x128 .f32) (harg3 : arg3.IsWhole) (arg4 : Memref sig .tc .vmem S1x2048 .f32) (harg4 : arg4.IsWhole) (arg5 : Memref sig .tc .vmem S1x1 .f32) (harg5 : arg5.IsWhole) (hc0 : isFirst i) (hc1 : ¬isLater i) (hc2 : ¬isLast i)
    (x0 : Vec F S1x512x2048 .f32) :
    Σ' (LRow : List (View.Piece (Elt F) S1x2048 .f32)), { LSum : List (View.Piece (Elt F) S1x1 .f32) //
      ∀ (xo : Vec F S1x8x128 .f32) (E : Set ℕ) (K : PUnit → sProp 𝕄),
        iprop(owns (c : Thread nD τ) arg2 fullShare x0 ∗ owns (c : Thread nD τ) arg3 fullShare xo ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare xo
                ∗ (∃ f, arg4.view.loc (c : Thread nD τ) ↦[arg4.view.set]{fullShare} arg4.view.writes (Elt F) f LRow)
                ∗ (∃ f, arg5.view.loc (c : Thread nD τ) ↦[arg5.view.set]{fullShare} arg5.view.writes (Elt F) f LSum)) -∗ K ⟨⟩))
          ⊢ wp frame (wpE (defs₀ (F := F)) Variants.none c none) E (cc0__coherence_kernel i arg2 harg2 arg3 harg3 arg4 harg4 arg5 harg5) K } := by
  refine ⟨?_, ?_, fun xo E K => ?run⟩
  case run =>
    simp only [cc0__coherence_kernel_eq_skeleton]; unfold cc0__coherence_kernel_skel
    unfold owns
    iintro ⟨⟨%f0, %hf0, H0⟩, ⟨%f1, %hf1, H1⟩, ⟨%dr, %fr, -, HR⟩, ⟨%ds, %fs, -, HS⟩, Hk⟩
    obtain rfl := harg2.eq_unread hf0; obtain rfl := harg3.eq_unread hf1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [HR]
    · iexists _; iexact HR
    iexists _; iexact HS

end Cert.KernelIdeal.Frm

end
-- ==== Proof.RunMid.lean ====
/-
  The body at a chunk that is neither a batch's first nor its last, run symbolically: the previous chunk's last
  normalised row and the running sum are read from the scratch buffers at the contents the point before left
  (`xr`, `xs`); the straddling pair and then the inner pairs are added; the block's last normalised row replaces
  the kept row; nothing is stored into the output block.
-/
import proofs.«115897_j40424232190289_1_alg».proof.Proof.RunFirst

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runMid (c : Dev nD) (i : grid0.Coords) (arg2 : Memref sig .tc .vmem S1x512x2048 .f32) (harg2 : arg2.IsWhole) (arg3 : Memref sig .tc .vmem S1x8x128 .f32) (harg3 : arg3.IsWhole) (arg4 : Memref sig .tc .vmem S1x2048 .f32) (harg4 : arg4.IsWhole) (arg5 : Memref sig .tc .vmem S1x1 .f32) (harg5 : arg5.IsWhole) (hc0 : ¬isFirst i) (hc1 : isLater i) (hc2 : ¬isLast i)
    (x0 : Vec F S1x512x2048 .f32) (xr : Vec F S1x2048 .f32) (xs : Vec F S1x1 .f32) :
    Σ' (LRow : List (View.Piece (Elt F) S1x2048 .f32)), { LSum : List (View.Piece (Elt F) S1x1 .f32) //
      ∀ (xo : Vec F S1x8x128 .f32) (E : Set ℕ) (K : PUnit → sProp 𝕄),
        iprop(owns (c : Thread nD τ) arg2 fullShare x0 ∗ owns (c : Thread nD τ) arg3 fullShare xo ∗ owns (c : Thread nD τ) arg4 fullShare xr ∗ owns (c : Thread nD τ) arg5 fullShare xs
            ∗ (iprop(owns (c : Thread nD τ) arg2 fullShare x0 ∗ owns (c : Thread nD τ) arg3 fullShare xo
                ∗ (∃ f, arg4.view.loc (c : Thread nD τ) ↦[arg4.view.set]{fullShare} arg4.view.writes (Elt F) f LRow)
                ∗ (∃ f, arg5.view.loc (c : Thread nD τ) ↦[arg5.view.set]{fullShare} arg5.view.writes (Elt F) f LSum)) -∗ K ⟨⟩))
          ⊢ wp frame (wpE (defs₀ (F := F)) Variants.none c none) E (cc0__coherence_kernel i arg2 harg2 arg3 harg3 arg4 harg4 arg5 harg5) K } := by
  refine ⟨?_, ?_, fun xo E K => ?run⟩
  case run =>
    simp only [cc0__coherence_kernel_eq_skeleton]; unfold cc0__coherence_kernel_skel
    unfold owns
    iintro ⟨⟨%f0, %hf0, H0⟩, ⟨%f1, %hf1, H1⟩, ⟨%fr, %hfr, HR⟩, ⟨%fs, %hfs, HS⟩, Hk⟩
    obtain rfl := harg2.eq_unread hf0; obtain rfl := harg3.eq_unread hf1
    obtain rfl := harg4.eq_unread hfr; obtain rfl := harg5.eq_unread hfs
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [HR]
    · iexists _; iexact HR
    iexists _; iexact HS

end Cert.KernelIdeal.Frm

end
-- ==== Proof.RunLast.lean ====
/-
  The body at a batch's LAST chunk, run symbolically: as at a middle chunk, and then the running sum, now the
  batch's whole sum, is broadcast into the output block (whose buffer is taken at anything and left with the
  pieces found here written).
-/
import proofs.«115897_j40424232190289_1_alg».proof.Proof.RunMid

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runLast (c : Dev nD) (i : grid0.Coords) (arg2 : Memref sig .tc .vmem S1x512x2048 .f32) (harg2 : arg2.IsWhole) (arg3 : Memref sig .tc .vmem S1x8x128 .f32) (harg3 : arg3.IsWhole) (arg4 : Memref sig .tc .vmem S1x2048 .f32) (harg4 : arg4.IsWhole) (arg5 : Memref sig .tc .vmem S1x1 .f32) (harg5 : arg5.IsWhole) (hc0 : ¬isFirst i) (hc1 : isLater i) (hc2 : isLast i)
    (x0 : Vec F S1x512x2048 .f32) (xr : Vec F S1x2048 .f32) (xs : Vec F S1x1 .f32) :
    Σ' (LOut : List (View.Piece (Elt F) S1x8x128 .f32)) (LRow : List (View.Piece (Elt F) S1x2048 .f32)), { LSum : List (View.Piece (Elt F) S1x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xr ∗ owns (c : Thread nD τ) arg5 fullShare xs
            ∗ (iprop(owns (c : Thread nD τ) arg2 fullShare x0
                ∗ (∃ f, arg3.view.loc (c : Thread nD τ) ↦[arg3.view.set]{fullShare} arg3.view.writes (Elt F) f LOut)
                ∗ (∃ f, arg4.view.loc (c : Thread nD τ) ↦[arg4.view.set]{fullShare} arg4.view.writes (Elt F) f LRow)
                ∗ (∃ f, arg5.view.loc (c : Thread nD τ) ↦[arg5.view.set]{fullShare} arg5.view.writes (Elt F) f LSum)) -∗ K ⟨⟩))
          ⊢ wp frame (wpE (defs₀ (F := F)) Variants.none c none) E (cc0__coherence_kernel i arg2 harg2 arg3 harg3 arg4 harg4 arg5 harg5) K } := by
  refine ⟨?_, ?_, ?_, fun E K => ?run⟩
  case run =>
    simp only [cc0__coherence_kernel_eq_skeleton]; unfold cc0__coherence_kernel_skel
    unfold owns
    iintro ⟨⟨%f0, %hf0, H0⟩, ⟨%d1, %f1, -, H1⟩, ⟨%fr, %hfr, HR⟩, ⟨%fs, %hfs, HS⟩, Hk⟩
    obtain rfl := harg2.eq_unread hf0
    obtain rfl := harg4.eq_unread hfr; obtain rfl := harg5.eq_unread hfs
    sl_exec (disch := first | exact hc0 | exact hc1 | exact hc2)
    sl_step
    iapply Hk
    isplitl [H0]
    · iexists _; isplitr; · ipureintro; exact harg2.read_unread _
      iexact H0
    isplitl [H1]
    · iexists _; iexact H1
    isplitl [HR]
    · iexists _; iexact HR
    iexists _; iexact HS

end Cert.KernelIdeal.Frm

end
-- ==== Proof.Outs.lean ====
/-
  What each grid point leaves behind. The three runs are specialised to the memrefs the pipeline calls the body
  with at point `t`; the pieces each run stores are read back as the contents of the kept-row scratch, the
  running-sum scratch and (at a last chunk) the output block; and the contents after point n are defined by
  recursion on n: a first chunk starts afresh, a later chunk continues from what the point before left.
-/
import proofs.«115897_j40424232190289_1_alg».proof.Proof.RunLast

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The runs at a point -/

theorem first_conds (t : Fin cfg0.N) (h0 : t.val % 8 = 0) :
    isFirst (grid0.coords t) ∧ ¬isLater (grid0.coords t) ∧ ¬isLast (grid0.coords t) :=
  ⟨(isFirst_iff t).mpr h0, fun h => (isLater_iff t).mp h h0, fun h => by have := (isLast_iff t).mp h; omega⟩
theorem mid_conds (t : Fin cfg0.N) (h0 : ¬t.val % 8 = 0) (h7 : ¬t.val % 8 = 7) :
    ¬isFirst (grid0.coords t) ∧ isLater (grid0.coords t) ∧ ¬isLast (grid0.coords t) :=
  ⟨fun h => h0 ((isFirst_iff t).mp h), (isLater_iff t).mpr h0, fun h => h7 ((isLast_iff t).mp h)⟩
theorem last_conds (t : Fin cfg0.N) (h0 : ¬t.val % 8 = 0) (h7 : t.val % 8 = 7) :
    ¬isFirst (grid0.coords t) ∧ isLater (grid0.coords t) ∧ isLast (grid0.coords t) :=
  ⟨fun h => h0 ((isFirst_iff t).mp h), (isLater_iff t).mpr h0, (isLast_iff t).mpr h7⟩

/-- The first-chunk run at point `t`. -/
noncomputable abbrev firstAt (c : Dev nD) (t : Fin cfg0.N) (h0 : t.val % 8 = 0) (x0 : Vec F S1x512x2048 .f32) :=
  runFirst (F := F) c (grid0.coords t) (msIn t) (hsIn t) (msOut t) (hsOut t) scRow (Memref.isWhole_whole _) scSum (Memref.isWhole_whole _) (first_conds t h0).1 (first_conds t h0).2.1 (first_conds t h0).2.2 x0
/-- The middle-chunk run at point `t`. -/
noncomputable abbrev midAt (c : Dev nD) (t : Fin cfg0.N) (h0 : ¬t.val % 8 = 0) (h7 : ¬t.val % 8 = 7) (x0 : Vec F S1x512x2048 .f32) (xr : Vec F S1x2048 .f32) (xs : Vec F S1x1 .f32) :=
  runMid (F := F) c (grid0.coords t) (msIn t) (hsIn t) (msOut t) (hsOut t) scRow (Memref.isWhole_whole _) scSum (Memref.isWhole_whole _) (mid_conds t h0 h7).1 (mid_conds t h0 h7).2.1 (mid_conds t h0 h7).2.2 x0 xr xs
/-- The last-chunk run at point `t`. -/
noncomputable abbrev lastAt (c : Dev nD) (t : Fin cfg0.N) (h0 : ¬t.val % 8 = 0) (h7 : t.val % 8 = 7) (x0 : Vec F S1x512x2048 .f32) (xr : Vec F S1x2048 .f32) (xs : Vec F S1x1 .f32) :=
  runLast (F := F) c (grid0.coords t) (msIn t) (hsIn t) (msOut t) (hsOut t) scRow (Memref.isWhole_whole _) scSum (Memref.isWhole_whole _) (last_conds t h0 h7).1 (last_conds t h0 h7).2.1 (last_conds t h0 h7).2.2 x0 xr xs

/-! ## The stored pieces cover their buffers -/

theorem coverRowFirst (c : Dev nD) (t : Fin cfg0.N) (h0 : t.val % 8 = 0) (x0 : Vec F S1x512x2048 .f32) (y : S1x2048.Idx) :
    ∃ pc ∈ (firstAt c t h0 x0).1, y ∈ pc.1.set :=
  View.cover_of_tiledL (firstAt c t h0 x0).1 S1x2048.size (by sl_kernel_rfl) y
theorem coverSumFirst (c : Dev nD) (t : Fin cfg0.N) (h0 : t.val % 8 = 0) (x0 : Vec F S1x512x2048 .f32) (y : S1x1.Idx) :
    ∃ pc ∈ (firstAt c t h0 x0).2.1, y ∈ pc.1.set :=
  View.cover_of_tiledL (firstAt c t h0 x0).2.1 S1x1.size (by sl_kernel_rfl) y
theorem coverRowMid (c : Dev nD) (t : Fin cfg0.N) (h0 : ¬t.val % 8 = 0) (h7 : ¬t.val % 8 = 7) (x0 : Vec F S1x512x2048 .f32) (xr : Vec F S1x2048 .f32) (xs : Vec F S1x1 .f32) (y : S1x2048.Idx) :
    ∃ pc ∈ (midAt c t h0 h7 x0 xr xs).1, y ∈ pc.1.set :=
  View.cover_of_tiledL (midAt c t h0 h7 x0 xr xs).1 S1x2048.size (by sl_kernel_rfl) y
theorem coverSumMid (c : Dev nD) (t : Fin cfg0.N) (h0 : ¬t.val % 8 = 0) (h7 : ¬t.val % 8 = 7) (x0 : Vec F S1x512x2048 .f32) (xr : Vec F S1x2048 .f32) (xs : Vec F S1x1 .f32) (y : S1x1.Idx) :
    ∃ pc ∈ (midAt c t h0 h7 x0 xr xs).2.1, y ∈ pc.1.set :=
  View.cover_of_tiledL (midAt c t h0 h7 x0 xr xs).2.1 S1x1.size (by sl_kernel_rfl) y
theorem coverOutLast (c : Dev nD) (t : Fin cfg0.N) (h0 : ¬t.val % 8 = 0) (h7 : t.val % 8 = 7) (x0 : Vec F S1x512x2048 .f32) (xr : Vec F S1x2048 .f32) (xs : Vec F S1x1 .f32) (y : S1x8x128.Idx) :
    ∃ pc ∈ (lastAt c t h0 h7 x0 xr xs).1, y ∈ pc.1.set :=
  View.cover_of_tiledL (lastAt c t h0 h7 x0 xr xs).1 S1x8x128.size (by sl_kernel_rfl) y
theorem coverRowLast (c : Dev nD) (t : Fin cfg0.N) (h0 : ¬t.val % 8 = 0) (h7 : t.val % 8 = 7) (x0 : Vec F S1x512x2048 .f32) (xr : Vec F S1x2048 .f32) (xs : Vec F S1x1 .f32) (y : S1x2048.Idx) :
    ∃ pc ∈ (lastAt c t h0 h7 x0 xr xs).2.1, y ∈ pc.1.set :=
  View.cover_of_tiledL (lastAt c t h0 h7 x0 xr xs).2.1 S1x2048.size (by sl_kernel_rfl) y
theorem coverSumLast (c : Dev nD) (t : Fin cfg0.N) (h0 : ¬t.val % 8 = 0) (h7 : t.val % 8 = 7) (x0 : Vec F S1x512x2048 .f32) (xr : Vec F S1x2048 .f32) (xs : Vec F S1x1 .f32) (y : S1x1.Idx) :
    ∃ pc ∈ (lastAt c t h0 h7 x0 xr xs).2.2.1, y ∈ pc.1.set :=
  View.cover_of_tiledL (lastAt c t h0 h7 x0 xr xs).2.2.1 S1x1.size (by sl_kernel_rfl) y

/-! ## The pieces read back -/

/-- A placeholder for the output buffer's contents at the points that store nothing into it (nothing reads it). -/
def noOut : Vec F S1x8x128 .f32 := VO.read (Elt F) VO.junk
def noRow : Vec F S1x2048 .f32 := VRow.read (Elt F) VRow.junk
def noSum : Vec F S1x1 .f32 := VSum.read (Elt F) VSum.junk

def rowFirst (c : Dev nD) (t : Fin cfg0.N) (h0 : t.val % 8 = 0) (x0 : Vec F S1x512x2048 .f32) : Vec F S1x2048 .f32 :=
  VRow.read (Elt F) (VRow.writes (Elt F) VRow.junk (firstAt c t h0 x0).1)
def sumFirst (c : Dev nD) (t : Fin cfg0.N) (h0 : t.val % 8 = 0) (x0 : Vec F S1x512x2048 .f32) : Vec F S1x1 .f32 :=
  VSum.read (Elt F) (VSum.writes (Elt F) VSum.junk (firstAt c t h0 x0).2.1)
def rowMid (c : Dev nD) (t : Fin cfg0.N) (h0 : ¬t.val % 8 = 0) (h7 : ¬t.val % 8 = 7) (x0 : Vec F S1x512x2048 .f32) (xr : Vec F S1x2048 .f32) (xs : Vec F S1x1 .f32) : Vec F S1x2048 .f32 :=
  VRow.read (Elt F) (VRow.writes (Elt F) VRow.junk (midAt c t h0 h7 x0 xr xs).1)
def sumMid (c : Dev nD) (t : Fin cfg0.N) (h0 : ¬t.val % 8 = 0) (h7 : ¬t.val % 8 = 7) (x0 : Vec F S1x512x2048 .f32) (xr : Vec F S1x2048 .f32) (xs : Vec F S1x1 .f32) : Vec F S1x1 .f32 :=
  VSum.read (Elt F) (VSum.writes (Elt F) VSum.junk (midAt c t h0 h7 x0 xr xs).2.1)
def outLast (c : Dev nD) (t : Fin cfg0.N) (h0 : ¬t.val % 8 = 0) (h7 : t.val % 8 = 7) (x0 : Vec F S1x512x2048 .f32) (xr : Vec F S1x2048 .f32) (xs : Vec F S1x1 .f32) : Vec F S1x8x128 .f32 :=
  VO.read (Elt F) (VO.writes (Elt F) VO.junk (lastAt c t h0 h7 x0 xr xs).1)
def rowLast (c : Dev nD) (t : Fin cfg0.N) (h0 : ¬t.val % 8 = 0) (h7 : t.val % 8 = 7) (x0 : Vec F S1x512x2048 .f32) (xr : Vec F S1x2048 .f32) (xs : Vec F S1x1 .f32) : Vec F S1x2048 .f32 :=
  VRow.read (Elt F) (VRow.writes (Elt F) VRow.junk (lastAt c t h0 h7 x0 xr xs).2.1)
def sumLast (c : Dev nD) (t : Fin cfg0.N) (h0 : ¬t.val % 8 = 0) (h7 : t.val % 8 = 7) (x0 : Vec F S1x512x2048 .f32) (xr : Vec F S1x2048 .f32) (xs : Vec F S1x1 .f32) : Vec F S1x1 .f32 :=
  VSum.read (Elt F) (VSum.writes (Elt F) VSum.junk (lastAt c t h0 h7 x0 xr xs).2.2.1)

/-! ## Point by point -/

/-- What point `t` leaves (output block, kept row, running sum), given the block `x0` it reads and what the point
    before left in the two scratch buffers. -/
def stepAt (c : Dev nD) (t : Fin cfg0.N) (x0 : Vec F S1x512x2048 .f32) (prev : Vec F S1x2048 .f32 × Vec F S1x1 .f32) :
    Vec F S1x8x128 .f32 × Vec F S1x2048 .f32 × Vec F S1x1 .f32 :=
  if h0 : t.val % 8 = 0 then (noOut, rowFirst c t h0 x0, sumFirst c t h0 x0)
  else if h7 : t.val % 8 = 7 then (outLast c t h0 h7 x0 prev.1 prev.2, rowLast c t h0 h7 x0 prev.1 prev.2, sumLast c t h0 h7 x0 prev.1 prev.2)
  else (noOut, rowMid c t h0 h7 x0 prev.1 prev.2, sumMid c t h0 h7 x0 prev.1 prev.2)

/-- What the buffers hold after the body at position `n`, by recursion on `n`. -/
def ptsAt (c : Dev nD) : (n : ℕ) → n < cfg0.N → Vec F S1x8x128 .f32 × Vec F S1x2048 .f32 × Vec F S1x1 .f32
  | 0, hn => stepAt c ⟨0, hn⟩ (iblk m c 0 ⟨0, hn⟩) (noRow, noSum)
  | n + 1, hn => stepAt c ⟨n + 1, hn⟩ (iblk m c 0 ⟨n + 1, hn⟩) (ptsAt c n (Nat.lt_of_succ_lt hn)).2

/-- What the point before `t` left in the scratch buffers (placeholders before the first point). -/
def prevAt (c : Dev nD) (t : Fin cfg0.N) : Vec F S1x2048 .f32 × Vec F S1x1 .f32 :=
  if hz : t.val = 0 then (noRow, noSum) else (ptsAt m c (t.val - 1) (Nat.lt_of_le_of_lt (Nat.sub_le _ _) t.isLt)).2

theorem ptsAt_eq (c : Dev nD) (t : Fin cfg0.N) : ptsAt m c t.val t.isLt = stepAt c t (iblk m c 0 t) (prevAt m c t) := by
  obtain ⟨n, hn⟩ := t
  cases n with
  | zero => rfl
  | succ n => rfl

end Cert.KernelIdeal.Frm

end
-- ==== Proof.Pieces.lean ====
/-
  What the stored pieces are, as values. Each scratch buffer and the output block is stored whole, so what a run
  leaves in it is the payload of its last store; a load made after a store in the same run reads that store's
  payload. Hence: the kept row after any chunk is the block's last normalised row; the running sum after a first
  chunk is the reset value plus the inner pairs, after a later chunk the previous sum plus the straddling pair plus
  the inner pairs; the output block at a last chunk is the broadcast of that final sum.
-/
import proofs.«115897_j40424232190289_1_alg».proof.Proof.Outs
import Idealize.ShloMosaic.Lib.Pipeline.Value

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem zeros2 : (![0, 0] : Fin 2 → Nat) = fun _ => 0 := by funext a; fin_cases a <;> rfl
theorem zeros3 : (![0, 0, 0] : Fin 3 → Nat) = fun _ => 0 := by funext a; fin_cases a <;> rfl

/-- Reading back what was put whole into a scratch buffer gives it back. -/
theorem read_back_row (h : scRow.IsWhole) (xr : Vec F S1x2048 .f32) :
    View.read (Elt F) (View.whole cc0_scratch0 : View sig .tc .vmem S1x2048 .f32) (h.unread xr) = xr := h.read_unread xr
theorem read_back_sum (h : scSum.IsWhole) (xs : Vec F S1x1 .f32) :
    View.read (Elt F) (View.whole cc0_scratch1 : View sig .tc .vmem S1x1 .f32) (h.unread xs) = xs := h.read_unread xs

theorem rowFirst_eq (c : Dev nD) (t : Fin cfg0.N) (h0 : t.val % 8 = 0) (x0 : Vec F S1x512x2048 .f32) :
    rowFirst (F := F) c t h0 x0 = k0_pay1 (k0_pay7 x0) := by
  unfold rowFirst
  rw [View.read_writes_eq_canon _ _ _ (coverRowFirst c t h0 x0)]
  unfold firstAt runFirst
  dsimp only
  sl_unfold_words
  rw [View.canon_unit_zero (S := S1x2048) zeros2]
  simp only [View.readAt_eq_ld, Memref.IsWhole.read_unread, View.ld_unit_zero (S := S1x512x2048) zeros3]

theorem sumFirst_eq (c : Dev nD) (t : Fin cfg0.N) (h0 : t.val % 8 = 0) (x0 : Vec F S1x512x2048 .f32) :
    sumFirst (F := F) c t h0 x0 = k0_pay6 x0 (k0_pay3 (F := F)) := by
  unfold sumFirst
  rw [View.read_writes_eq_canon _ _ _ (coverSumFirst c t h0 x0)]
  unfold firstAt runFirst
  dsimp only
  sl_unfold_words
  rw [View.canon_cons_unit_zero (S := S1x1) zeros2]
  simp only [View.readAt_eq_ld, Memref.IsWhole.read_unread, View.ld_unit_zero (S := S1x512x2048) zeros3,
    View.readCov_unit_zero (S := S1x1) _ zeros2]

theorem rowMid_eq (c : Dev nD) (t : Fin cfg0.N) (h0 : ¬t.val % 8 = 0) (h7 : ¬t.val % 8 = 7) (x0 : Vec F S1x512x2048 .f32) (xr : Vec F S1x2048 .f32) (xs : Vec F S1x1 .f32) :
    rowMid (F := F) c t h0 h7 x0 xr xs = k0_pay1 (k0_pay7 x0) := by
  unfold rowMid
  rw [View.read_writes_eq_canon _ _ _ (coverRowMid c t h0 h7 x0 xr xs)]
  unfold midAt runMid
  dsimp only
  sl_unfold_words
  rw [View.canon_unit_zero (S := S1x2048) zeros2]
  simp only [View.readAt_eq_ld, Memref.IsWhole.read_unread, View.ld_unit_zero (S := S1x512x2048) zeros3]

theorem sumMid_eq (c : Dev nD) (t : Fin cfg0.N) (h0 : ¬t.val % 8 = 0) (h7 : ¬t.val % 8 = 7) (x0 : Vec F S1x512x2048 .f32) (xr : Vec F S1x2048 .f32) (xs : Vec F S1x1 .f32) :
    sumMid (F := F) c t h0 h7 x0 xr xs = k0_pay6 x0 (k0_pay5 x0 xr xs) := by
  unfold sumMid
  rw [View.read_writes_eq_canon _ _ _ (coverSumMid c t h0 h7 x0 xr xs)]
  unfold midAt runMid
  dsimp only
  sl_unfold_words
  rw [View.canon_cons_unit_zero (S := S1x1) zeros2]
  simp only [View.readAt_eq_ld, Memref.IsWhole.read_unread, View.ld_unit_zero (S := S1x512x2048) zeros3,
    View.ld_unit_zero (S := S1x2048) zeros2, View.ld_unit_zero (S := S1x1) zeros2,
    View.readCov_unit_zero (S := S1x1) _ zeros2]
  exact congrArg (k0_pay6 x0) (congrArg₂ (k0_pay5 x0) (read_back_row _ xr) (read_back_sum _ xs))

theorem rowLast_eq (c : Dev nD) (t : Fin cfg0.N) (h0 : ¬t.val % 8 = 0) (h7 : t.val % 8 = 7) (x0 : Vec F S1x512x2048 .f32) (xr : Vec F S1x2048 .f32) (xs : Vec F S1x1 .f32) :
    rowLast (F := F) c t h0 h7 x0 xr xs = k0_pay1 (k0_pay7 x0) := by
  unfold rowLast
  rw [View.read_writes_eq_canon _ _ _ (coverRowLast c t h0 h7 x0 xr xs)]
  unfold lastAt runLast
  dsimp only
  sl_unfold_words
  rw [View.canon_unit_zero (S := S1x2048) zeros2]
  simp only [View.readAt_eq_ld, Memref.IsWhole.read_unread, View.ld_unit_zero (S := S1x512x2048) zeros3]

theorem sumLast_eq (c : Dev nD) (t : Fin cfg0.N) (h0 : ¬t.val % 8 = 0) (h7 : t.val % 8 = 7) (x0 : Vec F S1x512x2048 .f32) (xr : Vec F S1x2048 .f32) (xs : Vec F S1x1 .f32) :
    sumLast (F := F) c t h0 h7 x0 xr xs = k0_pay6 x0 (k0_pay5 x0 xr xs) := by
  unfold sumLast
  rw [View.read_writes_eq_canon _ _ _ (coverSumLast c t h0 h7 x0 xr xs)]
  unfold lastAt runLast
  dsimp only
  sl_unfold_words
  rw [View.canon_cons_unit_zero (S := S1x1) zeros2]
  simp only [View.readAt_eq_ld, Memref.IsWhole.read_unread, View.ld_unit_zero (S := S1x512x2048) zeros3,
    View.ld_unit_zero (S := S1x2048) zeros2, View.ld_unit_zero (S := S1x1) zeros2,
    View.readCov_unit_zero (S := S1x1) _ zeros2]
  exact congrArg (k0_pay6 x0) (congrArg₂ (k0_pay5 x0) (read_back_row _ xr) (read_back_sum _ xs))

theorem outLast_eq (c : Dev nD) (t : Fin cfg0.N) (h0 : ¬t.val % 8 = 0) (h7 : t.val % 8 = 7) (x0 : Vec F S1x512x2048 .f32) (xr : Vec F S1x2048 .f32) (xs : Vec F S1x1 .f32) :
    outLast (F := F) c t h0 h7 x0 xr xs = k0_pay2 (k0_pay6 x0 (k0_pay5 x0 xr xs)) := by
  unfold outLast
  rw [View.read_writes_eq_canon _ _ _ (coverOutLast c t h0 h7 x0 xr xs)]
  unfold lastAt runLast
  dsimp only
  sl_unfold_words
  rw [View.canon_unit_zero (S := S1x8x128) zeros3]
  rw [View.readCov_eq_canon_ld _ _ _ (fun y => ⟨_, List.mem_cons_self, View.mem_set_unit_zero zeros2 Facts₀.inb_S1x1_S1x1_0_0 y⟩)]
  rw [View.canon_cons_unit_zero (S := S1x1) zeros2]
  simp only [View.readAt_eq_ld, Memref.IsWhole.read_unread, View.ld_unit_zero (S := S1x512x2048) zeros3,
    View.ld_unit_zero (S := S1x2048) zeros2, View.ld_unit_zero (S := S1x1) zeros2,
    View.readCov_unit_zero (S := S1x1) _ zeros2]
  exact congrArg k0_pay2 (congrArg (k0_pay6 x0) (congrArg₂ (k0_pay5 x0) (read_back_row _ xr) (read_back_sum _ xs)))

end Cert.KernelIdeal.Frm

end
-- ==== Proof.Spec.lean ====
/-
  What both programs compute, as plain mathematics over the extended reals.

  The input is an array x of 8 batches × 4096 rows × 2048 features. Each row is divided by its Euclidean norm
  clamped below by ε (the clamp keeps the quotient defined for a zero row); the "coherence" of a batch is the sum,
  over the 4095 pairs of ADJACENT rows, of the dot product of the two normalised rows; the result is
  1 − (sum over the 8 batches) / 32760, where 32760 = 8 · 4095 is the number of pairs.

  The same quantities are also stated for ONE chunk of 512 consecutive rows of a batch (a "block"), which is the
  unit the tiled program works on: a block's rows are normalised by themselves (a row's norm only needs the row),
  and the 511 adjacent pairs INSIDE a block are what a block contributes on its own; the pair straddling two
  consecutive blocks needs the previous block's last normalised row.
-/
import Idealize.ShloMosaic.PureOps.Ideal
import Idealize.ShloMosaic.PureOps.Ideal.Laws
import Idealize.ShloMosaic.Lib.ValueIdx

noncomputable section

namespace Cert.AdjCos

open Idealize.ShloMosaic Idealize.ShloMosaic.ValueIdx
open scoped BigOperators

/-- The whole input: 8 × 4096 × 2048 extended reals. -/
abbrev Arr : Type := (⟨3, ![8, 4096, 2048]⟩ : Shape).Idx → EReal
/-- One chunk of 512 rows of one batch. -/
abbrev Blk : Type := (⟨3, ![1, 512, 2048]⟩ : Shape).Idx → EReal

/-- The clamp ε (the single-precision pattern nearest 10⁻¹²; it is the same word in both programs, so its value
    is never needed). -/
def eps : EReal := Ideal.ofBits .f32 0x2B8CBCCC#32

/-- A natural number as a row number of a batch (reduced mod 4096, so that the functions below are total). -/
def row (l : ℕ) : Fin 4096 := ⟨l % 4096, Nat.mod_lt _ (by norm_num)⟩
/-- A natural number as a row number inside a block (reduced mod 512). -/
def brow (i : ℕ) : Fin 512 := ⟨i % 512, Nat.mod_lt _ (by norm_num)⟩

/-! ## The whole array -/

/-- The clamped norm of row `l` of batch `b`: max(√(Σ_d x²), ε). -/
def den (x : Arr) (b : Fin 8) (l : Fin 4096) : EReal :=
  max (Ideal.sqrt (∑ d : Fin 2048, x (ix3 b l d) * x (ix3 b l d))) eps
/-- The normalised row. -/
def nrow (x : Arr) (b : Fin 8) (l : Fin 4096) (d : Fin 2048) : EReal := Ideal.div (x (ix3 b l d)) (den x b l)
/-- The dot product of normalised rows `l` and `l + 1` of batch `b`. -/
def adj (x : Arr) (b : Fin 8) (l : ℕ) : EReal := ∑ d : Fin 2048, nrow x b (row l) d * nrow x b (row (l + 1)) d
/-- The sum of the first `n` adjacent-row products of batch `b`. -/
def adjUpTo (x : Arr) (b : Fin 8) (n : ℕ) : EReal := ∑ l ∈ Finset.range n, adj x b l
/-- A batch's coherence sum: all 4095 adjacent pairs. -/
def batchSum (x : Arr) (b : Fin 8) : EReal := adjUpTo x b 4095
/-- The sum over the batches. -/
def total (x : Arr) : EReal := ∑ b : Fin 8, batchSum x b
/-- The result: 1 − total / 32760 (both literals kept as their single-precision patterns). -/
def result (x : Arr) : EReal := Ideal.ofBits .f32 0x3F800000#32 - Ideal.div (total x) (Ideal.ofBits .f32 0x46FFF000#32)

/-! ## One block -/

/-- The clamped norm of row `i` of a block. -/
def bden (v : Blk) (i : Fin 512) : EReal :=
  max (Ideal.sqrt (∑ d : Fin 2048, v (ix3 (0 : Fin 1) i d) * v (ix3 (0 : Fin 1) i d))) eps
/-- The block's normalised row `i`. -/
def bnrow (v : Blk) (i : Fin 512) (d : Fin 2048) : EReal := Ideal.div (v (ix3 (0 : Fin 1) i d)) (bden v i)
/-- The dot product of the block's normalised rows `i` and `i + 1` (cyclically: row 512 is row 0). -/
def badj (v : Blk) (i : ℕ) : EReal := ∑ d : Fin 2048, bnrow v (brow i) d * bnrow v (brow (i + 1)) d
/-- What a block contributes by itself: its 511 inner adjacent pairs. -/
def bwithin (v : Blk) : EReal := ∑ i ∈ Finset.range 511, badj v i
/-- The pair straddling a block's first row and a given previous normalised row `p`. -/
def bcross (p : Fin 2048 → EReal) (v : Blk) : EReal := ∑ d : Fin 2048, p d * bnrow v 0 d

/-- Chunk `c` of batch `b` of the array, as a block: rows 512·c … 512·c + 511. -/
def chunk (x : Arr) (b : Fin 8) (c : Fin 8) : Blk :=
  fun y => x (ix3 b ⟨512 * c.val + (y 1).val, by have h1 : (y 1).val < 512 := (y 1).isLt; have h2 := c.isLt; show _ < 4096; omega⟩ (y 2))

end Cert.AdjCos

end
-- ==== Proof.Payload.lean ====
/-
  The arithmetic of the kernel body, read at an index over the extended reals.
  The body normalises the 512 rows of its block (each row divided by its clamped norm), and from the normalised
  block takes: its last row (kept for the next chunk); the dot product of a given previous row with its first row;
  and the sum of the 511 dot products of adjacent rows inside the block — the last formed by rotating the block up
  by one row, multiplying row by row, summing along the features, and masking out the wrapped-around row 511.
-/
import proofs.«115897_j40424232190289_1_alg».proof.Proof.Spec
import proofs.«115897_j40424232190289_1_alg».proof.Proof.Gen.KernelIdeal.Skeleton
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Idealize.SL.Sem
open Cert.KernelIdeal Cert.KernelIdeal.Gen Cert.AdjCos
open scoped BigOperators

/-! ## Layout operations at coordinates: the column forms -/

/-- A vector `[a]` cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {α : Type} {a b : ℕ} (x : (⟨2, ![a, 1]⟩ : Shape).Idx → α)
    (h : (⟨2, ![a, 1]⟩ : Shape).Broadcasts ⟨2, ![a, b]⟩) (p : Fin a) (c : Fin b) :
    broadcastTo ⟨2, ![a, b]⟩ x h (ix2 p c) = x (ix2 p (0 : Fin 1)) := by
  refine broadcastTo_apply x h (ix2 p c) (ix2 p (0 : Fin 1)) fun ax => ?_
  match ax with
  | ⟨0, _⟩ =>
    show p.val = if a = 1 then 0 else p.val
    split
    · have := p.isLt; omega
    · rfl
  | ⟨1, _⟩ => rfl

/-! ## Sums along an axis -/

/-- The sum along the features of a `512 × 2048` matrix, at row `i`. -/
theorem rowSum_apply (w : FVec Ideal S512x2048 .f32) (h : S512x2048.Reduces [1] S512) (hφ : FKind.Formats .f32)
    (hacc : (0x00000000#32 : BitVec 32) = 0x00000000#32) (i : Fin 512) :
    multiReduction (F := Ideal) .add [1] S512 w 0x00000000#32 h hφ hacc (ix1 i) = ∑ d : Fin 2048, w (ix2 i d) := by
  refine (Ideal.multiReduction_add_single w 0x00000000#32 h hφ hacc (ix1 i)).trans ?_
  refine Finset.sum_congr rfl fun d _ => congrArg w ?_
  funext c
  match c with
  | ⟨0, _⟩ => exact Fin.ext rfl
  | ⟨1, _⟩ => exact Fin.ext rfl

/-! ## The normalised block -/

/-- The clamped norm of row `i`, as the body forms it from the block read as a matrix `w`. -/
theorem den_apply (w : FVec Ideal S512x2048 .f32) (h1 : S512x2048.Reduces [1] S512) (hφ : FKind.Formats .f32)
    (hacc : (0x00000000#32 : BitVec 32) = 0x00000000#32) (h2 : S512.ShapeCasts S512x1)
    (h3 : S512x1.Broadcasts S512x2048) (i : Fin 512) (d : Fin 2048) :
    broadcastTo S512x2048
        (maximumf (sqrt (shapeCast S512x1 (multiReduction (F := Ideal) .add [1] S512 (mulf w w) 0x00000000#32 h1 hφ hacc) h2))
          (broadcast S512x1 (Scalar.ofBits (F := Ideal) .f32 0x2B8CBCCC#32))) h3 (ix2 i d)
      = max (Ideal.sqrt (∑ e : Fin 2048, w (ix2 i e) * w (ix2 i e))) eps := by
  rw [broadcastTo_a1_ab_apply]
  show max (Ideal.sqrt (shapeCast S512x1 _ h2 (ix2 i (0 : Fin 1)))) (Ideal.ofBits .f32 0x2B8CBCCC#32) = _
  rw [shapeCast_a_a1_apply, rowSum_apply]
  rfl

/-! ## The rotation by one row -/

/-- The block rotated by 511 along its 512 rows reads, at row `i`, row `i + 1` (row 0 at the last). -/
theorem rotate_apply {α : Type} (x : S512x2048.Idx → α) (h : S512x2048.Rotates 0 none) (i : Fin 512) (d : Fin 2048) :
    dynamicRotate (s := S512x2048) 0 511#32 none x h (ix2 i d) = x (ix2 (brow (i.val + 1)) d) := by
  unfold dynamicRotate
  refine congrArg x ?_
  funext b
  match b with
  | ⟨0, _⟩ =>
    refine Fin.ext ?_
    show (i.val + 512 - (511 + 0) % 512) % 512 = (i.val + 1) % 512
    have := i.isLt
    omega
  | ⟨1, _⟩ => rfl

/-- A row number below 512 is its own reduction. -/
theorem brow_val (i : Fin 512) : brow i.val = i := Fin.ext (Nat.mod_eq_of_lt i.isLt)

/-! ## The mask of the wrapped-around row -/

/-- The mask as a function of the row number: 1 below 511, 0 at 511. -/
def maskAt (n : ℕ) : EReal := if n < 511 then 1 else 0

/-- The word of the mask: the signed comparison of a row number with 511, widened to 32 bits, read as an integer. -/
theorem maskWord (k : ℕ) (hk : k < 512) :
    ((IntOp.cmpi .slt (BitVec.ofNat 32 k) 511#32).setWidth 32).toInt = if k < 511 then 1 else 0 := by
  have hn : (BitVec.ofNat 32 k).toNat = k := by
    rw [BitVec.toNat_ofNat]; exact Nat.mod_eq_of_lt (by omega)
  have hx : (BitVec.ofNat 32 k).toInt = (k : Int) := by
    rw [BitVec.toInt_eq_toNat_of_lt (by rw [hn]; omega), hn]
  have hy : (511#32 : BitVec 32).toInt = 511 := by decide
  have hs : (BitVec.ofNat 32 k).slt 511#32 = decide (k < 511) := by
    unfold BitVec.slt
    rw [hx, hy]
    exact decide_eq_decide.mpr (by omega)
  show ((BitVec.ofBool ((BitVec.ofNat 32 k).slt 511#32)).setWidth 32).toInt = _
  rw [hs]
  by_cases h : k < 511
  · rw [if_pos h, decide_eq_true h]; decide
  · rw [if_neg h, decide_eq_false h]; decide

/-- The comparison of the row number with 511, widened and converted, is the mask. -/
theorem mask_apply (h : S512x1.Iotas .tc 32 [0]) (h' : 1 < 32) (i : Fin 512) (u : Fin 1) :
    (sitofp .f32 (extui 32 (cmpi .slt (iota .tc S512x1 32 [0] h) (broadcast S512x1 511#32)) h') : FVec Ideal S512x1 .f32) (ix2 i u)
      = maskAt i.val := by
  show (((((IntOp.cmpi .slt (iota .tc S512x1 32 [0] h (ix2 i u)) 511#32).setWidth 32).toInt : ℝ)) : EReal) = _
  rw [iota_single_apply]
  show (((((IntOp.cmpi .slt (BitVec.ofNat 32 i.val) 511#32).setWidth 32).toInt : ℝ)) : EReal) = _
  rw [maskWord i.val i.isLt]
  unfold maskAt
  split <;> simp

/-! ## The other two sums along an axis -/

/-- The sum along the rows of a `512 × 1` column. -/
theorem colSum_apply (w : FVec Ideal S512x1 .f32) (h : S512x1.Reduces [0] S1) (hφ : FKind.Formats .f32)
    (hacc : (0x00000000#32 : BitVec 32) = 0x00000000#32) (u : Fin 1) :
    multiReduction (F := Ideal) .add [0] S1 w 0x00000000#32 h hφ hacc (ix1 u) = ∑ k : Fin 512, w (ix2 k u) := by
  refine (Ideal.multiReduction_add_single w 0x00000000#32 h hφ hacc (ix1 u)).trans ?_
  refine Finset.sum_congr rfl fun k _ => congrArg w ?_
  funext c
  match c with
  | ⟨0, _⟩ => exact Fin.ext rfl
  | ⟨1, _⟩ => exact Fin.ext rfl

/-- The sum along the features of a single row. -/
theorem oneRowSum_apply (w : FVec Ideal S1x2048 .f32) (h : S1x2048.Reduces [1] S1) (hφ : FKind.Formats .f32)
    (hacc : (0x00000000#32 : BitVec 32) = 0x00000000#32) (u : Fin 1) :
    multiReduction (F := Ideal) .add [1] S1 w 0x00000000#32 h hφ hacc (ix1 u) = ∑ d : Fin 2048, w (ix2 u d) := by
  refine (Ideal.multiReduction_add_single w 0x00000000#32 h hφ hacc (ix1 u)).trans ?_
  refine Finset.sum_congr rfl fun d _ => congrArg w ?_
  funext c
  match c with
  | ⟨0, _⟩ => exact Fin.ext rfl
  | ⟨1, _⟩ => exact Fin.ext rfl

/-! ## The masked sum over the rows -/

/-- Summing 512 terms against the mask keeps the first 511. -/
theorem sum_mask (f : ℕ → EReal) : ∑ k : Fin 512, f k.val * maskAt k.val = ∑ i ∈ Finset.range 511, f i := by
  refine (Fin.sum_univ_eq_sum_range (fun n => f n * maskAt n) 512).trans ?_
  refine (Finset.sum_range_succ (fun n => f n * maskAt n) 511).trans ?_
  have h511 : maskAt 511 = 0 := if_neg (lt_irrefl _)
  rw [h511, mul_zero, add_zero]
  refine Finset.sum_congr rfl fun i hi => ?_
  have h1 : maskAt i = 1 := if_pos (Finset.mem_range.mp hi)
  rw [h1, mul_one]

/-- Row `k` of the masked column: the product of rows `k` and `k + 1` of a matrix `N`, summed along the features,
    against the mask. -/
theorem maskedRow_apply (N : FVec Ideal S512x2048 .f32) (hrot : S512x2048.Rotates 0 none) (h1 : S512x2048.Reduces [1] S512)
    (hφ : FKind.Formats .f32) (hacc : (0x00000000#32 : BitVec 32) = 0x00000000#32) (h2 : S512.ShapeCasts S512x1)
    (hi : S512x1.Iotas .tc 32 [0]) (hlt : 1 < 32) (k : Fin 512) (u : Fin 1) :
    mulf (shapeCast S512x1 (multiReduction (F := Ideal) .add [1] S512 (mulf N (dynamicRotate 0 511#32 none N hrot)) 0x00000000#32 h1 hφ hacc) h2)
        (sitofp .f32 (extui 32 (cmpi .slt (iota .tc S512x1 32 [0] hi) (broadcast S512x1 511#32)) hlt)) (ix2 k u)
      = (∑ d : Fin 2048, N (ix2 k d) * N (ix2 (brow (k.val + 1)) d)) * maskAt k.val := by
  show shapeCast S512x1 _ h2 (ix2 k u) * (sitofp .f32 _ : FVec Ideal S512x1 .f32) (ix2 k u) = _
  rw [shapeCast_a_a1_apply, rowSum_apply, mask_apply]
  refine congrArg (· * maskAt k.val) (Finset.sum_congr rfl fun d _ => ?_)
  show N (ix2 k d) * dynamicRotate 0 511#32 none N hrot (ix2 k d) = _
  rw [rotate_apply]

/-! ## The payloads -/

/-- The normalised block, entry (i, d): the block's entry over its row's clamped norm. -/
theorem pay4_apply (v : Vec Ideal S1x512x2048 .f32) (i : Fin 512) (d : Fin 2048) :
    k0_pay4 (F := Ideal) v (ix2 i d) = bnrow v i d := by
  unfold k0_pay4
  show Ideal.div (shapeCast S512x2048 v shapeCasts_S1x512x2048_S512x2048 (ix2 i d)) (broadcastTo S512x2048 _ _ (ix2 i d)) = _
  rw [den_apply, shapeCast_1ab_ab_apply]
  unfold bnrow bden
  simp only [shapeCast_1ab_ab_apply]

/-- The row kept for the next chunk is the normalised block's last row. -/
theorem pay7_apply (v : Vec Ideal S1x512x2048 .f32) (d : Fin 2048) :
    k0_pay7 (F := Ideal) v (ix2 (0 : Fin 1) d) = bnrow v (brow 511) d := by
  unfold k0_pay7
  rw [slice2_axis0_apply 511 (k0_pay4 (F := Ideal) v) _ (0 : Fin 1) d (brow 511) rfl, pay4_apply]

/-- Storing the kept row changes nothing of it. -/
theorem pay1_apply (r : FVec Ideal S1x2048 .f32) (j : S1x2048.Idx) : k0_pay1 (F := Ideal) r j = r j := by
  unfold k0_pay1
  rw [shapeCast_self]

/-- The reset value of the running sum is zero. -/
theorem pay3_apply (j : S1x1.Idx) : k0_pay3 (F := Ideal) j = 0 := by
  unfold k0_pay3
  rw [shapeCast_self]
  show Ideal.ofBits .f32 0x00000000#32 = 0
  exact Ideal.ofBits_zero_f32

/-- Adding the straddling pair: the running sum plus the dot product of the previous row with the block's first
    normalised row. -/
theorem pay5_apply (v : Vec Ideal S1x512x2048 .f32) (p : Vec Ideal S1x2048 .f32) (s : Vec Ideal S1x1 .f32) (j : S1x1.Idx) :
    k0_pay5 (F := Ideal) v p s j = s j + bcross (fun d => p (ix2 (0 : Fin 1) d)) v := by
  obtain ⟨a, b, rfl⟩ : ∃ (a b : Fin 1), j = ix2 a b := ⟨j 0, j 1, eq_ix2 j⟩
  unfold k0_pay5
  rw [shapeCast_self]
  show s (ix2 a b) + shapeCast S1x1 _ shapeCasts_S1_S1x1 (ix2 a b) = _
  rw [shapeCast_a_1a_apply, oneRowSum_apply]
  unfold bcross
  refine congrArg (s (ix2 a b) + ·) (Finset.sum_congr rfl fun d _ => ?_)
  show p (ix2 b d) * extractStridedSlice S1x2048 ![0, 0] (k0_pay4 (F := Ideal) v) _ (ix2 b d) = _
  rw [slice2_axis0_apply 0 (k0_pay4 (F := Ideal) v) _ b d (0 : Fin 512) (by show 0 = 0 + b.val; omega), pay4_apply]
  obtain rfl : b = 0 := Subsingleton.elim _ _
  rfl

/-- Adding the block's inner pairs: the running sum plus the 511 adjacent-row products inside the block. -/
theorem pay6_apply (v : Vec Ideal S1x512x2048 .f32) (s : Vec Ideal S1x1 .f32) (j : S1x1.Idx) :
    k0_pay6 (F := Ideal) v s j = s j + bwithin v := by
  obtain ⟨a, b, rfl⟩ : ∃ (a b : Fin 1), j = ix2 a b := ⟨j 0, j 1, eq_ix2 j⟩
  unfold k0_pay6
  rw [shapeCast_self]
  show s (ix2 a b) + shapeCast S1x1 _ shapeCasts_S1_S1x1 (ix2 a b) = _
  rw [shapeCast_a_1a_apply, colSum_apply]
  refine congrArg (s (ix2 a b) + ·) ?_
  rw [Finset.sum_congr rfl fun k _ => maskedRow_apply (k0_pay4 (F := Ideal) v) _ _ _ _ _ _ _ k b]
  have hb : ∀ k : Fin 512,
      (∑ d : Fin 2048, k0_pay4 (F := Ideal) v (ix2 k d) * k0_pay4 (F := Ideal) v (ix2 (brow (k.val + 1)) d)) = badj v k.val := fun k => by
    unfold badj
    rw [brow_val]
    exact Finset.sum_congr rfl fun d _ => by rw [pay4_apply, pay4_apply]
  rw [Finset.sum_congr rfl fun k _ => congrArg (· * maskAt k.val) (hb k)]
  exact sum_mask (badj v)

/-- The output block is the running sum at every entry. -/
theorem pay2_apply (s : Vec Ideal S1x1 .f32) (j : S1x8x128.Idx) :
    k0_pay2 (F := Ideal) s j = s (ix2 (0 : Fin 1) (0 : Fin 1)) := by
  obtain ⟨u, p, q, rfl⟩ : ∃ (u : Fin 1) (p : Fin 8) (q : Fin 128), j = ix3 u p q := ⟨j 0, j 1, j 2, eq_ix3 j⟩
  unfold k0_pay2
  rw [shapeCast_ab_1ab_apply, shapeCast_self]
  exact broadcastTo_apply s _ (ix2 p q) (ix2 (0 : Fin 1) (0 : Fin 1)) fun ax => by
    match ax with
    | ⟨0, _⟩ => rfl
    | ⟨1, _⟩ => rfl

end Cert.KernelIdeal.Pay

end
-- ==== Proof.Algebra.lean ====
/-
  How a batch's 4095 adjacent-row products split over its 8 chunks of 512 rows: chunk c holds 511 inner pairs
  (rows 512c+i, 512c+i+1 for i < 511), and for c > 0 one more pair straddles it and the chunk before
  (rows 512c − 1, 512c). A chunk's normalised rows are the array's (a row's norm only needs the row). So the
  running sum after chunk c is the sum of the first 512(c+1) − 1 products.
-/
import proofs.«115897_j40424232190289_1_alg».proof.Proof.Spec

noncomputable section

namespace Cert.AdjCos

open Idealize.ShloMosaic Idealize.ShloMosaic.ValueIdx
open scoped BigOperators

/-- For a chunk number c < 8 and a row i < 512 of the chunk, 512c + i is already a row number of the batch:
    the reduction mod 4096 does nothing. -/
theorem row_chunk (c : Fin 8) (i : Fin 512) (h : 512 * c.val + i.val < 4096) :
    row (512 * c.val + i.val) = ⟨512 * c.val + i.val, h⟩ :=
  Fin.ext (Nat.mod_eq_of_lt h)

/-- An entry of a chunk is the array's entry in row 512c + i. -/
theorem chunk_apply (x : Arr) (b c : Fin 8) (i : Fin 512) (d : Fin 2048) :
    chunk x b c (ix3 (0 : Fin 1) i d) = x (ix3 b (row (512 * c.val + i.val)) d) := by
  have h : 512 * c.val + i.val < 4096 := by
    have hc := c.isLt
    have hi := i.isLt
    omega
  rw [row_chunk c i h]
  rfl

/-- A chunk row's clamped norm is the array row's: the norm only sums over the row's own entries. -/
theorem bden_chunk (x : Arr) (b c : Fin 8) (i : Fin 512) :
    bden (chunk x b c) i = den x b (row (512 * c.val + i.val)) := by
  unfold bden den
  simp only [chunk_apply]

/-- Below 512 the reduction mod 512 does nothing. -/
theorem brow_of_lt (i : ℕ) (h : i < 512) : brow i = ⟨i, h⟩ :=
  Fin.ext (Nat.mod_eq_of_lt h)

/-- A chunk's normalised row i is the array's normalised row 512c + i. -/
theorem bnrow_chunk (x : Arr) (b c : Fin 8) (i : Fin 512) (d : Fin 2048) :
    bnrow (chunk x b c) i d = nrow x b (row (512 * c.val + i.val)) d := by
  unfold bnrow nrow
  rw [chunk_apply, bden_chunk]

/-- A chunk's inner pairs are the array's pairs 512c … 512c + 510. -/
theorem bwithin_chunk (x : Arr) (b c : Fin 8) :
    bwithin (chunk x b c) = ∑ i ∈ Finset.range 511, adj x b (512 * c.val + i) := by
  unfold bwithin
  refine Finset.sum_congr rfl fun i hi => ?_
  have hi' : i < 511 := Finset.mem_range.mp hi
  unfold badj adj
  refine Finset.sum_congr rfl fun d _ => ?_
  -- rows i and i + 1 of the chunk are rows 512c + i and 512c + i + 1 of the batch
  rw [brow_of_lt i (by omega), brow_of_lt (i + 1) (by omega), bnrow_chunk, bnrow_chunk]
  rfl

/-- The pair straddling chunk c − 1 and chunk c is the array's pair 512c − 1. -/
theorem bcross_chunk (x : Arr) (b c : Fin 8) (hc : 0 < c.val) :
    bcross (fun d => nrow x b (row (512 * c.val - 1)) d) (chunk x b c) = adj x b (512 * c.val - 1) := by
  unfold bcross adj
  refine Finset.sum_congr rfl fun d _ => ?_
  -- the chunk's row 0 is row 512c of the batch, which is the successor of row 512c − 1
  rw [bnrow_chunk]
  have e : 512 * c.val - 1 + 1 = 512 * c.val + (0 : Fin 512).val := by
    show 512 * c.val - 1 + 1 = 512 * c.val + 0
    omega
  rw [e]

/-- After the first chunk: zero plus its inner pairs is the first 511 products. -/
theorem adjUpTo_first (x : Arr) (b : Fin 8) : (0 : EReal) + bwithin (chunk x b 0) = adjUpTo x b 511 := by
  rw [zero_add, bwithin_chunk]
  unfold adjUpTo
  refine Finset.sum_congr rfl fun i _ => ?_
  have e : 512 * (0 : Fin 8).val + i = i := by
    show 512 * 0 + i = i
    omega
  rw [e]

/-- After a later chunk: the sum so far, plus the straddling pair, plus the inner pairs. -/
theorem adjUpTo_step (x : Arr) (b c : Fin 8) (hc : 0 < c.val) :
    adjUpTo x b (512 * c.val - 1) + bcross (fun d => nrow x b (row (512 * c.val - 1)) d) (chunk x b c) + bwithin (chunk x b c)
      = adjUpTo x b (512 * (c.val + 1) - 1) := by
  rw [bwithin_chunk, bcross_chunk x b c hc]
  unfold adjUpTo
  -- 512(c+1) − 1 = (512c − 1) + 1 + 511: the sum so far, one straddling pair, 511 inner pairs
  have e : 512 * (c.val + 1) - 1 = (512 * c.val - 1 + 1) + 511 := by omega
  rw [e, Finset.sum_range_add, Finset.sum_range_succ _ (512 * c.val - 1)]
  congr 1
  refine Finset.sum_congr rfl fun i _ => ?_
  have e' : 512 * c.val - 1 + 1 + i = 512 * c.val + i := by omega
  rw [e']

end Cert.AdjCos

end
-- ==== Proof.Body.lean ====
/-
  The region's frame. The proof data of the one pipeline: the arrays as the region finds them; after the body at
  point t the input buffer still at its block and the output buffer at what the recursion says; between points the
  two scratch buffers are owned at what the point before left in them (before the first point: at anything).
  The body obligation is the three symbolic runs, chosen by the chunk number; the launch then gives the run of
  @main with every array of the pipeline named, and from it the frame claim.
-/
import proofs.«115897_j40424232190289_1_alg».proof.Proof.Outs

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region invariant before position `n`: before the first point what the launch lends; afterwards the two
    scratch buffers at what point `n - 1` left, and the generator register at some state. -/
def PhiS (c : Dev nD) : (n : ℕ) → n ≤ cfg0.N → sProp 𝕄
  | 0, _ => Pipeline.ΦA spec0 c
  | n + 1, hn => iprop(iprop(owns (c : Thread nD τ) scRow fullShare ((ptsAt m c n hn).2.1) ∗ owns (c : Thread nD τ) scSum fullShare ((ptsAt m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scRow fullShare ((ptsAt m c n hn).2.1) ∗ owns (c : Thread nD τ) scSum fullShare ((ptsAt m c n hn).2.2)) ∗ (∃ r, prngReg c r)) := rfl

theorem PhiS_pos (c : Dev nD) (n : ℕ) (h : n ≤ cfg0.N) (hz : n ≠ 0) :
    PhiS m c n h = iprop(iprop(owns (c : Thread nD τ) scRow fullShare ((ptsAt m c (n - 1) (by omega)).2.1) ∗ owns (c : Thread nD τ) scSum fullShare ((ptsAt m c (n - 1) (by omega)).2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (ptsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_in (c : Dev nD) (t : Fin cfg0.N) : (dats m 0 c).after 0 t = iblk m c 0 t := by dsimp only [dats]
theorem after_out (c : Dev nD) (t : Fin cfg0.N) : (dats m 0 c).after 1 t = (ptsAt m c t.val t.isLt).1 := by dsimp only [dats]

/-- The input's current staging buffer holds its block at every point. -/
theorem before_in (c : Dev nD) (t : Fin cfg0.N) (d) : (dats m 0 c).before 0 t d = iblk m c 0 t :=
  before0_0_of m (dats m 0 c) (A_eq m c 0) (after_in m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (msIn t) fullShare ((dats m 0 c).before 0 t d))
    ∗ (∃ d, owns (c : Thread nD τ) (msOut t) fullShare ((dats m 0 c).before 1 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

theorem leaves_in (c : Dev nD) (t : Fin cfg0.N) :
    (dats m 0 c).leavesExact 0 t = owns (c : Thread nD τ) (msIn t) fullShare (iblk m c 0 t) := by
  rw [show (dats m 0 c).leavesExact 0 t = owns (c : Thread nD τ) (msIn t) fullShare ((dats m 0 c).after 0 t) from by
    unfold Dat.leavesExact; rw [live_in t], after_in]

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).owesAt () t.succ = (dats m 0 c).owesAt () t.castSucc from rfl]
  rw [show (dats m 0 c).Φ t.succ = PhiS m c (t.val + 1) t.isLt from rfl, PhiS_succ]
  rw [leaves_in]
  have hN : t.val < 64 := lt_of_lt_of_eq t.isLt (show cfg0.N = 64 from N_0)
  rw [ptsAt_eq m c t]
  unfold stepAt
  by_cases h0 : t.val % 8 = 0
  · rw [dif_pos h0]; dsimp only
    rw [Dat.leavesExact_idle (dats m 0 c) 1 t (idle_out t (first_conds t h0).2.2) (noflush_out t (first_conds t h0).2.2)]
    unfold rowFirst sumFirst
    by_cases hz : t.val = 0
    · rw [PhiS_castSucc m c t, PhiS_zero m c _ _ hz, PhiA_eq]
      iintro ⟨⟨⟨HR, HS⟩, Hg⟩, Ho, ⟨%d0, H0⟩, ⟨%d1, H1⟩⟩
      iapply ((firstAt c t h0 (iblk m c 0 t)).2.2 _ Set.univ _)
      isplitl [H0]; · iexact H0
      isplitl [H1]; · iexact H1
      isplitl [HR]; · iexact HR
      isplitl [HS]; · iexact HS
      iintro ⟨H0, H1, ⟨%er, HR⟩, ⟨%es, HS⟩⟩
      isplitl [HR HS Hg]
      · isplitl [HR HS]
        · isplitl [HR]
          · unfold owns; iexists _; isplitr
            swap; · iexact HR
            ipureintro; exact View.read_writes_of_cover _ _ _ _ _ (coverRowFirst c t h0 _)
          · unfold owns; iexists _; isplitr
            swap; · iexact HS
            ipureintro; exact View.read_writes_of_cover _ _ _ _ _ (coverSumFirst c t h0 _)
        iexact Hg
      isplitl [Ho]; · iexact Ho
      isplitl [H0]; · iexact H0
      iexists _; iexact H1
    · rw [PhiS_castSucc m c t, PhiS_pos m c _ _ hz]
      iintro ⟨⟨⟨HR, HS⟩, Hg⟩, Ho, ⟨%d0, H0⟩, ⟨%d1, H1⟩⟩
      iapply ((firstAt c t h0 (iblk m c 0 t)).2.2 _ Set.univ _)
      isplitl [H0]; · iexact H0
      isplitl [H1]; · iexact H1
      isplitl [HR]; · iexists _; iexact HR
      isplitl [HS]; · iexists _; iexact HS
      iintro ⟨H0, H1, ⟨%er, HR⟩, ⟨%es, HS⟩⟩
      isplitl [HR HS Hg]
      · isplitl [HR HS]
        · isplitl [HR]
          · unfold owns; iexists _; isplitr
            swap; · iexact HR
            ipureintro; exact View.read_writes_of_cover _ _ _ _ _ (coverRowFirst c t h0 _)
          · unfold owns; iexists _; isplitr
            swap; · iexact HS
            ipureintro; exact View.read_writes_of_cover _ _ _ _ _ (coverSumFirst c t h0 _)
        iexact Hg
      isplitl [Ho]; · iexact Ho
      isplitl [H0]; · iexact H0
      iexists _; iexact H1
  · rw [dif_neg h0]
    have hz : t.val ≠ 0 := fun h => h0 (by rw [h])
    have hprev : prevAt m c t = (ptsAt m c (t.val - 1) (Nat.lt_of_le_of_lt (Nat.sub_le _ _) t.isLt)).2 := by
      unfold prevAt; rw [dif_neg hz]
    by_cases h7 : t.val % 8 = 7
    · rw [dif_pos h7]; dsimp only
      rw [show (dats m 0 c).leavesExact 1 t = owns (c : Thread nD τ) (msOut t) fullShare ((dats m 0 c).after 1 t) from by
        unfold Dat.leavesExact; rw [live_out t (last_conds t h0 h7).2.2], after_out, ptsAt_eq m c t]
      unfold stepAt; rw [dif_neg h0, dif_pos h7]; dsimp only
      unfold outLast rowLast sumLast
      rw [PhiS_castSucc m c t, PhiS_pos m c _ _ hz, hprev]
      iintro ⟨⟨⟨HR, HS⟩, Hg⟩, Ho, ⟨%d0, H0⟩, ⟨%d1, H1⟩⟩
      iapply ((lastAt c t h0 h7 (iblk m c 0 t) _ _).2.2.2 Set.univ _)
      isplitl [H0]; · iexact H0
      isplitl [H1]; · iexists _; iexact H1
      isplitl [HR]; · iexact HR
      isplitl [HS]; · iexact HS
      iintro ⟨H0, ⟨%e1, H1⟩, ⟨%er, HR⟩, ⟨%es, HS⟩⟩
      isplitl [HR HS Hg]
      · isplitl [HR HS]
        · isplitl [HR]
          · unfold owns; iexists _; isplitr
            swap; · iexact HR
            ipureintro; exact View.read_writes_of_cover _ _ _ _ _ (coverRowLast c t h0 h7 _ _ _)
          · unfold owns; iexists _; isplitr
            swap; · iexact HS
            ipureintro; exact View.read_writes_of_cover _ _ _ _ _ (coverSumLast c t h0 h7 _ _ _)
        iexact Hg
      isplitl [Ho]; · iexact Ho
      isplitl [H0]; · iexact H0
      unfold owns; iexists _; isplitr
      swap; · iexact H1
      ipureintro; exact View.read_writes_of_cover _ _ _ _ _ (coverOutLast c t h0 h7 _ _ _)
    · rw [dif_neg h7]; dsimp only
      rw [Dat.leavesExact_idle (dats m 0 c) 1 t (idle_out t (mid_conds t h0 h7).2.2) (noflush_out t (mid_conds t h0 h7).2.2)]
      unfold rowMid sumMid
      rw [PhiS_castSucc m c t, PhiS_pos m c _ _ hz, hprev]
      iintro ⟨⟨⟨HR, HS⟩, Hg⟩, Ho, ⟨%d0, H0⟩, ⟨%d1, H1⟩⟩
      iapply ((midAt c t h0 h7 (iblk m c 0 t) _ _).2.2 _ Set.univ _)
      isplitl [H0]; · iexact H0
      isplitl [H1]; · iexact H1
      isplitl [HR]; · iexact HR
      isplitl [HS]; · iexact HS
      iintro ⟨H0, H1, ⟨%er, HR⟩, ⟨%es, HS⟩⟩
      isplitl [HR HS Hg]
      · isplitl [HR HS]
        · isplitl [HR]
          · unfold owns; iexists _; isplitr
            swap; · iexact HR
            ipureintro; exact View.read_writes_of_cover _ _ _ _ _ (coverRowMid c t h0 h7 _ _ _)
          · unfold owns; iexists _; isplitr
            swap; · iexact HS
            ipureintro; exact View.read_writes_of_cover _ _ _ _ _ (coverSumMid c t h0 h7 _ _ _)
        iexact Hg
      isplitl [Ho]; · iexact Ho
      isplitl [H0]; · iexact H0
      iexists _; iexact H1

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HR, HS⟩, Hg⟩
  isplitl [HR HS]
  · isplitl [HR]
    · iexists _; iexact HR
    · iexists _; iexact HS
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of @main terminates, and in every final state each array of the pipeline holds what
    the library computes from the proof data, every other unscoped buffer what the host lines after the region leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Frm

end
-- ==== Proof.Invariant.lean ====
/-
  The two scratch buffers and the output block after every grid point, as the specification's quantities.
  Point n is chunk n % 8 of batch n / 8. After it, the kept row is that chunk's last normalised row — row
  512·(n % 8) + 511 of the batch — and the running sum is the sum of the batch's first 512·(n % 8 + 1) − 1
  adjacent-row products: at a first chunk the reset value plus the chunk's 511 inner pairs; at a later chunk what
  the point before left, plus the pair straddling the two chunks (formed from the kept row), plus the inner pairs.
  At a batch's last chunk the output block holds that sum, now all 4095 products, at every entry.
-/
import proofs.«115897_j40424232190289_1_alg».proof.Proof.Pieces
import proofs.«115897_j40424232190289_1_alg».proof.Proof.Payload
import proofs.«115897_j40424232190289_1_alg».proof.Proof.Algebra
import proofs.«115897_j40424232190289_1_alg».proof.Proof.Body

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Frm Cert.KernelIdeal.Pay Cert.AdjCos
open scoped BigOperators

variable (m : (ℓ : Loc nD τ sig) → Buf (Elt Ideal) ℓ)

/-- The argument array on core `c`, as the region finds it. -/
abbrev xarr (c : Dev nD) : Arr := V m c main_arg0

/-- The batch of grid point `n` (n / 8; reduced mod 8 so that the function is total). -/
def bOf (n : ℕ) : Fin 8 := ⟨(n / 8) % 8, Nat.mod_lt _ (by norm_num)⟩
/-- The chunk of grid point `n`. -/
def cOf (n : ℕ) : Fin 8 := ⟨n % 8, Nat.mod_lt _ (by norm_num)⟩

theorem lt64 (t : Fin cfg0.N) : t.val < 64 := lt_of_lt_of_eq t.isLt (show cfg0.N = 64 from N_0)

/-- The input window's block index at point t: batch t / 8, chunk t % 8, all features. -/
theorem idx_in : ∀ t : Fin cfg0.N, win0_0.index t (0 : Fin 3) = t.val / 8 ∧ win0_0.index t (1 : Fin 3) = t.val % 8
    ∧ win0_0.index t (2 : Fin 3) = 0 :=
  (by decide +kernel : ∀ t : Fin grid0.N, win0_0.index t (0 : Fin 3) = t.val / 8 ∧ win0_0.index t (1 : Fin 3) = t.val % 8
    ∧ win0_0.index t (2 : Fin 3) = 0)

/-- The input block at point t is chunk t % 8 of batch t / 8 of the argument array. -/
theorem iblk_eq (c : Dev nD) (t : Fin cfg0.N) :
    (iblk m c 0 t : Vec Ideal S1x512x2048 .f32) = chunk (xarr m c) (bOf t.val) (cOf t.val) := by
  obtain ⟨e0, e1, e2⟩ := idx_in t
  have hN := lt64 t
  funext y
  show V m c main_arg0 (((cfg0.win 0).blk t).view.emb y) = V m c main_arg0 _
  refine congrArg (V m c main_arg0) ?_
  funext a; apply Fin.ext
  match a with
  | ⟨0, _⟩ =>
    show win0_0.index t (0 : Fin 3) * 1 + 1 * (y 0).val = (t.val / 8) % 8
    have hy : (y 0).val < 1 := (y 0).isLt
    omega
  | ⟨1, _⟩ =>
    show win0_0.index t (1 : Fin 3) * 512 + 1 * (y 1).val = 512 * (t.val % 8) + (y 1).val
    omega
  | ⟨2, _⟩ =>
    show win0_0.index t (2 : Fin 3) * 2048 + 1 * (y 2).val = (y 2).val
    omega

/-! ## One point, over the specification's chunk -/

/-- The row kept after chunk c8 of batch b is the batch's normalised row 512·c8 + 511. -/
theorem kept_row (x : Arr) (b c8 : Fin 8) (j : S1x2048.Idx) :
    k0_pay1 (F := Ideal) (k0_pay7 (F := Ideal) (chunk x b c8)) j = nrow x b (row (512 * c8.val + 511)) (j 1) := by
  rw [pay1_apply]
  obtain ⟨p, q, rfl⟩ : ∃ (p : Fin 1) (q : Fin 2048), j = ix2 p q := ⟨j 0, j 1, eq_ix2 j⟩
  obtain rfl : p = 0 := Subsingleton.elim _ _
  rw [pay7_apply, bnrow_chunk]
  rfl

/-- After a batch's first chunk the running sum is the batch's first 511 products. -/
theorem sum_first (x : Arr) (b : Fin 8) (j : S1x1.Idx) :
    k0_pay6 (F := Ideal) (chunk x b 0) (k0_pay3 (F := Ideal)) j = adjUpTo x b 511 := by
  rw [pay6_apply, pay3_apply, adjUpTo_first]

/-- After a later chunk c8: from the kept row 512·c8 − 1 and the first 512·c8 − 1 products, the first
    512·(c8 + 1) − 1 products. -/
theorem sum_later (x : Arr) (b c8 : Fin 8) (hc : 0 < c8.val) (xr : Vec Ideal S1x2048 .f32) (xs : Vec Ideal S1x1 .f32)
    (hr : xr = fun y : S1x2048.Idx => nrow x b (row (512 * c8.val - 1)) (y 1))
    (hs : xs = fun _ : S1x1.Idx => adjUpTo x b (512 * c8.val - 1)) (j : S1x1.Idx) :
    k0_pay6 (F := Ideal) (chunk x b c8) (k0_pay5 (F := Ideal) (chunk x b c8) xr xs) j
      = adjUpTo x b (512 * (c8.val + 1) - 1) := by
  subst hr hs
  rw [pay6_apply, pay5_apply]
  exact adjUpTo_step x b c8 hc

/-- The output block is the running sum at every entry. -/
theorem out_bcast (s : Vec Ideal S1x1 .f32) (v : EReal) (hs : s = fun _ => v) (j : S1x8x128.Idx) :
    k0_pay2 (F := Ideal) s j = v := by
  subst hs; rw [pay2_apply]

/-! ## One point of the recursion -/

/-- If the point before left the kept row and the running sum the specification names (nothing is asked at a first
    chunk), point t leaves the ones it names. -/
theorem step_inv (c : Dev nD) (t : Fin cfg0.N) (prev : Vec Ideal S1x2048 .f32 × Vec Ideal S1x1 .f32)
    (hprev : ¬ t.val % 8 = 0 →
      prev.1 = (fun y : S1x2048.Idx => nrow (xarr m c) (bOf t.val) (row (512 * (t.val % 8) - 1)) (y 1))
      ∧ prev.2 = (fun _ : S1x1.Idx => adjUpTo (xarr m c) (bOf t.val) (512 * (t.val % 8) - 1))) :
    (stepAt (F := Ideal) c t (iblk m c 0 t) prev).2.1
        = (fun y : S1x2048.Idx => nrow (xarr m c) (bOf t.val) (row (512 * (t.val % 8) + 511)) (y 1))
    ∧ (stepAt (F := Ideal) c t (iblk m c 0 t) prev).2.2
        = (fun _ : S1x1.Idx => adjUpTo (xarr m c) (bOf t.val) (512 * (t.val % 8 + 1) - 1))
    ∧ (t.val % 8 = 7 → (stepAt (F := Ideal) c t (iblk m c 0 t) prev).1
        = fun _ : S1x8x128.Idx => batchSum (xarr m c) (bOf t.val)) := by
  unfold stepAt
  by_cases h0 : t.val % 8 = 0
  · rw [dif_pos h0]; dsimp only
    refine ⟨?_, ?_, fun h7 => by omega⟩
    · rw [rowFirst_eq, iblk_eq]; funext y; exact kept_row _ _ _ y
    · rw [sumFirst_eq, iblk_eq]; funext j
      have hc : cOf t.val = 0 := Fin.ext h0
      rw [hc, sum_first]
      show adjUpTo _ _ 511 = adjUpTo _ _ (512 * (t.val % 8 + 1) - 1)
      rw [h0]
  · rw [dif_neg h0]
    obtain ⟨hr, hs⟩ := hprev h0
    have hpos : 0 < (cOf t.val).val := Nat.pos_of_ne_zero h0
    by_cases h7 : t.val % 8 = 7
    · rw [dif_pos h7]; dsimp only
      refine ⟨?_, ?_, fun _ => ?_⟩
      · rw [rowLast_eq, iblk_eq]; funext y; exact kept_row _ _ _ y
      · rw [sumLast_eq, iblk_eq]; funext j
        exact sum_later _ _ (cOf t.val) hpos _ _ hr hs j
      · rw [outLast_eq, iblk_eq]; funext j
        refine out_bcast _ _ ?_ j
        funext j'
        rw [sum_later _ _ (cOf t.val) hpos _ _ hr hs j']
        show adjUpTo _ _ (512 * (t.val % 8 + 1) - 1) = adjUpTo _ _ 4095
        rw [h7]
    · rw [dif_neg h7]; dsimp only
      refine ⟨?_, ?_, fun h => absurd h h7⟩
      · rw [rowMid_eq, iblk_eq]; funext y; exact kept_row _ _ _ y
      · rw [sumMid_eq, iblk_eq]; funext j
        exact sum_later _ _ (cOf t.val) hpos _ _ hr hs j

/-! ## Every point -/

/-- After every point the kept row, the running sum and (at a last chunk) the output block are the specification's. -/
theorem inv (c : Dev nD) : ∀ (n : ℕ) (hn : n < cfg0.N),
    (ptsAt m c n hn).2.1 = (fun y : S1x2048.Idx => nrow (xarr m c) (bOf n) (row (512 * (n % 8) + 511)) (y 1))
    ∧ (ptsAt m c n hn).2.2 = (fun _ : S1x1.Idx => adjUpTo (xarr m c) (bOf n) (512 * (n % 8 + 1) - 1))
    ∧ (n % 8 = 7 → (ptsAt m c n hn).1 = fun _ : S1x8x128.Idx => batchSum (xarr m c) (bOf n)) := by
  intro n
  induction n with
  | zero =>
    intro hn
    exact step_inv m c ⟨0, hn⟩ _ (fun h => absurd (Nat.zero_mod 8) h)
  | succ n ih =>
    intro hn
    obtain ⟨ihr, ihs, -⟩ := ih (Nat.lt_of_succ_lt hn)
    refine step_inv m c ⟨n + 1, hn⟩ _ (fun h => ?_)
    have h' : ¬ (n + 1) % 8 = 0 := h
    have eb : bOf n = bOf (n + 1) := Fin.ext (by show (n / 8) % 8 = ((n + 1) / 8) % 8; omega)
    have e1 : 512 * (n % 8) + 511 = 512 * ((n + 1) % 8) - 1 := by omega
    have e2 : 512 * (n % 8 + 1) - 1 = 512 * ((n + 1) % 8) - 1 := by omega
    refine ⟨?_, ?_⟩
    · rw [ihr, eb, e1]
    · rw [ihs, eb, e2]

/-- At a batch's last chunk the output block holds the batch's whole sum at every entry. -/
theorem out_at_last (c : Dev nD) (t : Fin cfg0.N) (h7 : t.val % 8 = 7) :
    (ptsAt m c t.val t.isLt).1 = fun _ => batchSum (xarr m c) (bOf t.val) :=
  (inv m c t.val t.isLt).2.2 h7

end Cert.KernelIdeal.Val

end
-- ==== Proof.Final.lean ====
/-
  The output array after the run. The output window's block at point t is row-slab t / 8 of the 8 × 8 × 128 array,
  and it is written back only after a batch's last chunk, when it holds the batch's sum at every entry: so the
  eight write-backs tile the array, and entry (b, r, q) ends at batch b's sum.
-/
import proofs.«115897_j40424232190289_1_alg».proof.Proof.Invariant
import Idealize.ShloMosaic.Lib.Pipeline.Value

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Frm Cert.AdjCos
open scoped BigOperators

variable (m : (ℓ : Loc nD τ sig) → Buf (Elt Ideal) ℓ)

/-- The output window's block index at point t, decided over the grid: slab t / 8 of the array, and 0 on the
    two inner axes (a block spans them whole). -/
theorem out_index : ∀ t : Fin cfg0.N, win0_1.index t (0 : Fin 3) = t.val / 8
    ∧ win0_1.index t (1 : Fin 3) = 0 ∧ win0_1.index t (2 : Fin 3) = 0 :=
  (by decide +kernel : ∀ t : Fin grid0.N, _)

/-- What the array is to end holding: batch b's sum at every entry (b, r, q). -/
abbrev outG (c : Dev nD) : S8x8x128.Idx → EReal := fun i => batchSum (xarr m c) ⟨(i 0).val, (i 0).isLt⟩

/-- What a batch's last chunk writes back is its slab of that array: the block holds the batch's sum at every
    entry, and the slab's first coordinate is the batch's number t / 8. -/
theorem flushed_out (c : Dev nD) (t : Fin cfg0.N) (h7 : t.val % 8 = 7) :
    (dats m 0 c).flushed 1 t = ((cfg0.win 1).blk t).view.read (Elt Ideal) (outG m c) := by
  show (cfg0.win 1).cut (grid0.coords t) ((dats m 0 c).after 1 t) = _
  rw [after_out, out_at_last m c t h7]
  obtain ⟨e0, -, -⟩ := out_index t
  have hN : grid0.N = 64 := N_0
  have ht : t.val < grid0.N := t.isLt
  funext y
  show batchSum (xarr m c) (bOf t.val) = batchSum (xarr m c) ⟨((((cfg0.win 1).blk t).view.emb y) 0).val, _⟩
  congr 1
  apply Fin.ext
  show (t.val / 8) % 8 = win0_1.index t (0 : Fin 3) * 1 + 1 * (y 0).val
  have hy : (y 0).val < 1 := (y 0).isLt
  omega

/-- An entry of the array lies in point t's block iff each coordinate lies in the block's range on its axis. -/
theorem mem_out_blk (t : Fin cfg0.N) (i : S8x8x128.Idx) :
    i ∈ ((cfg0.win 1).blk t).view.set ↔ ∀ a : Fin 3, win0_1.index t a * S1x8x128.size a ≤ (i a).val
      ∧ (i a).val < win0_1.index t a * S1x8x128.size a + S1x8x128.size a := by
  show i ∈ ((View.whole main_v0).slice (win0_1.rect t)).set ↔ _
  rw [View.set_slice_whole, Rect.mem_set_unit]
  exact Iff.rfl

/-- The eight write-backs tile the array: entry (b, r, q) lies in the block of batch b's last chunk, point 8b + 7. -/
theorem out_cover (i : S8x8x128.Idx) :
    ∃ t : Fin cfg0.N, (cfg0.win 1).flush t = true ∧ i ∈ ((cfg0.win 1).blk t).view.set := by
  have hN : grid0.N = 64 := N_0
  have h0 : (i 0).val < 8 := (i 0).isLt
  have h1 : (i 1).val < 8 := (i 1).isLt
  have h2 : (i 2).val < 128 := (i 2).isLt
  have hlt : 8 * (i 0).val + 7 < grid0.N := by omega
  refine ⟨⟨8 * (i 0).val + 7, hlt⟩, (flush0_1 _).mpr (by show (8 * (i 0).val + 7) % 8 = 7; omega), ?_⟩
  obtain ⟨e0, e1, e2⟩ := out_index ⟨8 * (i 0).val + 7, hlt⟩
  have e0' : win0_1.index ⟨8 * (i 0).val + 7, hlt⟩ (0 : Fin 3) = (8 * (i 0).val + 7) / 8 := e0
  rw [mem_out_blk]
  intro a
  match a with
  | ⟨0, _⟩ =>
    show win0_1.index ⟨8 * (i 0).val + 7, hlt⟩ (0 : Fin 3) * 1 ≤ (i 0).val
      ∧ (i 0).val < win0_1.index ⟨8 * (i 0).val + 7, hlt⟩ (0 : Fin 3) * 1 + 1
    omega
  | ⟨1, _⟩ =>
    show win0_1.index ⟨8 * (i 0).val + 7, hlt⟩ (1 : Fin 3) * 8 ≤ (i 1).val
      ∧ (i 1).val < win0_1.index ⟨8 * (i 0).val + 7, hlt⟩ (1 : Fin 3) * 8 + 8
    omega
  | ⟨2, _⟩ =>
    show win0_1.index ⟨8 * (i 0).val + 7, hlt⟩ (2 : Fin 3) * 128 ≤ (i 2).val
      ∧ (i 2).val < win0_1.index ⟨8 * (i 0).val + 7, hlt⟩ (2 : Fin 3) * 128 + 128
    omega

/-- The output array after the run: entry (b, r, q) is batch b's sum. -/
theorem final_out (c : Dev nD) :
    (dats m 0 c).arrAt 1 cfg0.N = fun i : S8x8x128.Idx => batchSum (xarr m c) ⟨(i 0).val, (i 0).isLt⟩ :=
  (dats m 0 c).arrAt_eq_of_cover 1 (outG m c) (fun t hf => flushed_out m c t ((flush0_1 t).mp hf)) out_cover

end Cert.KernelIdeal.Val

end
-- ==== Proof.Tail.lean ====
/-
  The host lines after the region: entry (b, 0, 0) of the output array is taken for each batch, the eight numbers
  are summed, divided by 32760 and subtracted from 1. When entry (b, ·, ·) is batch b's sum this is the
  specification's result.
-/
import proofs.«115897_j40424232190289_1_alg».proof.Proof.Body
import proofs.«115897_j40424232190289_1_alg».proof.Proof.Spec
import Idealize.ShloMosaic.Lib.Pipeline.Value
import Idealize.ShloMosaic.Lib.StableHlo.Run
import Idealize.ShloMosaic.PureOps.Ideal.Laws
import Idealize.ShloMosaic.Lib.ValueIdxRank1

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Frm Cert.AdjCos
open scoped BigOperators

variable (m : (ℓ : Loc nD τ sig) → Buf (Elt Ideal) ℓ)

/-- The host's sum of an 8-vector into a scalar, started from the zero word: the sum of its eight entries. -/
theorem sum8_apply (y : FVec Ideal S8 .f32) (h : S8.ReducesTo [0] S_) (hu : 0 < S_.numel) (j : S_.Idx) :
    Host.reduceAdd (F := Ideal) y (constant (F := Ideal) S_ .f32 0x00000000#32) h hu j = ∑ b : Fin 8, y (ix1 b) := by
  simp only [Host.reduceAdd, Ideal.hostReduceAdd_def]
  rw [Ideal.hostReduceAdd_total h (fun b => b.elim0) y _ j]
  rw [constant_apply, Ideal.ofBits_zero_f32, zero_add]
  exact (Equiv.sum_comp (idxEquiv1 (n := 8)).symm y).symm

/-- Entry `b` of the eight numbers the host lines pick: entry (b, 0, 0) of the output array. -/
theorem pick_apply (o : Vec Ideal S8x8x128 .f32) (hs : S8x8x128.Slices ![0, 0, 0] S8x1x1) (hc : S8x1x1.ShapeCasts S8) (b : Fin 8) :
    shapeCast S8 (extractStridedSlice S8x1x1 ![0, 0, 0] o hs) hc (ix1 b) = o (ix3 b (0 : Fin 8) (0 : Fin 128)) := by
  refine (shapeCast_apply _ hc (ix1 b) (ix3 b (0 : Fin 1) (0 : Fin 1)) ?_).trans ?_
  · rw [Shape.rowMajor_val_three, Shape.rowMajor_val_one]
    show (b.val * 1 + 0) * 1 + 0 = b.val
    omega
  · refine extractStridedSlice_apply _ o hs _ (ix3 b (0 : Fin 8) (0 : Fin 128)) fun a => ?_
    match a with
    | ⟨0, _⟩ => exact (Nat.zero_add _).symm
    | ⟨1, _⟩ => rfl
    | ⟨2, _⟩ => rfl

/-- The host lines after the region as ONE function of the output array. -/
def tailOf (o : Vec Ideal S8x8x128 .f32) : Vec Ideal S_ .f32 :=
  subf (constant (F := Ideal) S_ .f32 0x3F800000#32)
    (Host.divf (F := Ideal)
      (Host.reduceAdd (F := Ideal)
        (shapeCast S8 (extractStridedSlice S8x1x1 ![0, 0, 0] o slices_S8x8x128_S8x1x1_0_0_0) shapeCasts_S8x1x1_S8)
        (constant (F := Ideal) S_ .f32 0x00000000#32) reducesTo_S8_S_d0 h_S_)
      (constant (F := Ideal) S_ .f32 0x46FFF000#32))

/-- On an output array holding batch b's sum at every entry (b, ·, ·), the host lines compute the result. -/
theorem tailOf_eq (x : Arr) (o : Vec Ideal S8x8x128 .f32) (ho : ∀ i : S8x8x128.Idx, o i = batchSum x ⟨(i 0).val, (i 0).isLt⟩) :
    tailOf o = fun _ => result x := by
  funext j
  unfold tailOf
  show Ideal.ofBits .f32 0x3F800000#32
      - Ideal.div (Host.reduceAdd (F := Ideal)
          (shapeCast S8 (extractStridedSlice S8x1x1 ![0, 0, 0] o slices_S8x8x128_S8x1x1_0_0_0) shapeCasts_S8x1x1_S8)
          (constant (F := Ideal) S_ .f32 0x00000000#32) reducesTo_S8_S_d0 h_S_ j) (Ideal.ofBits .f32 0x46FFF000#32) = _
  rw [sum8_apply]
  unfold result total
  refine congrArg (fun s => Ideal.ofBits .f32 0x3F800000#32 - Ideal.div s (Ideal.ofBits .f32 0x46FFF000#32))
    (Finset.sum_congr rfl fun b _ => ?_)
  rw [pick_apply, ho]

/-- What the result buffer holds after the host lines, from the output array the region leaves. -/
theorem afterTail_eq (c : Dev nD) :
    Pipeline.afterTail₀ cfgs (dats m) 0 (V0 m) [hostOps1] c main_v5 = tailOf ((dats m 0 c).arrAt 1 cfg0.N) := by
  unfold Pipeline.afterTail₀
  simp only [List.flatten_cons, List.flatten_nil, List.append_nil]
  show StableHlo.after hostOps1 _ (Proc.devRef .tc main_v5) = _
  after_results
  exact congrArg tailOf
    (Pipeline.withArrays_arr spec0 launch0.win.arr_inj c (V0 m c) (fun w => (dats m 0 c).arrAt w (cfgs 0).N) 1)

end Cert.KernelIdeal.Val

end
-- ==== Proof.Value.lean ====
/-
  The idealized tiled program's run, read: its result buffer ends at the specification's result of the argument
  array, and the argument array is unchanged. From the frame run (every array of the pipeline named after the run,
  every other buffer at what the host lines after the region leave), the output array's final contents, and the
  host lines read as one function of that array.
-/
import proofs.«115897_j40424232190289_1_alg».proof.Proof.Final
import proofs.«115897_j40424232190289_1_alg».proof.Proof.Tail

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Frm Cert.AdjCos

variable (m : (ℓ : Loc nD τ sig) → Buf (Elt Ideal) ℓ) (ρ : Dev nD → PrngReg)

/-- Every weakly fair execution terminates with the result buffer at `result` of the argument array. -/
theorem run_value : θ_run (defs (F := Ideal)) (onTc (τ := τ) (main (F := Ideal))) ⟨m, fun _ => 0, ρ⟩ fun r => ∀ c : Dev nD,
    r.2.mem ((c.tc : Thread nD τ).loc main_v5) = (fun _ => result (m ((c.tc : Thread nD τ).loc main_arg0)))
    ∧ r.2.mem ((c.tc : Thread nD τ).loc main_arg0) = m ((c.tc : Thread nD τ).loc main_arg0) :=
  (θ_run defs _ _).mono (fun r h c =>
      ⟨((h c).2 main_v5 (Pipeline.mem_restRefs_of main_v5 (by decide) (by decide))).trans ((afterTail_eq m c).trans (tailOf_eq (xarr m c) _ (fun i => congrFun (final_out m c) i))),
       ((h c).1 0).trans (((dats m 0 c).arrAt_in 0 rfl _).trans ((A_eq m c 0).trans (V_main_arg0 m c)))⟩)
    (run_main m ρ)

end Cert.KernelIdeal.Val

end
-- ==== Proof.RefValue.lean ====
/-
  The reference program's result, read one operation at a time, is the specification's `result`:
  norms by a sum of squares and a square root, the clamp, the quotient, the two row-shifted slices multiplied and
  summed along the features (one term per adjacent pair), all pairs of all batches summed, divided by 32760 and
  subtracted from 1.
-/
import proofs.«115897_j40424232190289_1_alg».proof.Proof.Spec
import proofs.«115897_j40424232190289_1_alg».proof.Proof.Gen.ReferenceIdeal.Read
import Mathlib.Algebra.BigOperators.Fin

noncomputable section

namespace Cert.ReferenceIdeal.RefValue

open Idealize.ShloMosaic Idealize.ShloMosaic.ValueIdx Idealize.SL.Sem
open Cert.ReferenceIdeal Cert.ReferenceIdeal.Gen Cert.ReferenceIdeal.Read Cert.AdjCos
open scoped BigOperators

/-- The quotient stage at row `l` of batch `b` is the normalised row: the divisor read there is the clamped norm
    of that row, whatever the feature. -/
theorem quotient_at (x : (⟨S8x4096x2048, .f32⟩ : BufTy).Contents (Elt Ideal)) (b : Fin 8) (l : Fin 4096) (d : Fin 2048) :
    val_main_v4 (F := Ideal) x (ix3 b l d) = nrow x b l d := by
  rw [val_main_v4_apply, val_main_v3_apply, val_main_v2_apply, val_main_v0_apply, val_main_v1_apply, val_main_cst_apply,
    val_main_call0_v2_apply, val_main_call0_v1_apply, val_main_call0_cst_apply]
  simp only [Ideal.hostDivf_def, Ideal.maximumf_def, Ideal.hostUnary_sqrt_def, Ideal.ofBits_def, Ideal.ofBits_zero_f32,
    zero_add]
  unfold nrow den eps
  refine congrArg (Ideal.div _) (congrArg (max · _) (congrArg Ideal.sqrt (Finset.sum_congr rfl fun k _ => ?_)))
  rw [val_main_call0_v0_apply, Ideal.mulf_def]
  have e : idx_main_call0_v1 (idx_main_call0_v2 (idx_main_v3 (ix3 b l d))) k = ix3 b l k :=
    funext fun a => Fin.ext (by match a with | ⟨0, _⟩ => rfl | ⟨1, _⟩ => rfl | ⟨2, _⟩ => rfl)
  rw [e]

/-- The feature sum of the product of the two slices, at pair `l` of batch `b`, is the dot product of the
    normalised rows `l` and `l + 1`: the first slice reads row `l`, the second row `1 + l`, and both are below
    4096, so reducing them mod 4096 changes nothing. -/
theorem pair_at (x : (⟨S8x4096x2048, .f32⟩ : BufTy).Contents (Elt Ideal)) (b : Fin 8) (l : Fin 4095) :
    val_main_v8 (F := Ideal) x (ix2 b l) = adj x b l.val := by
  rw [val_main_v8_apply, val_main_cst_0_apply]
  simp only [Ideal.ofBits_def, Ideal.ofBits_zero_f32, zero_add]
  unfold adj
  refine Finset.sum_congr rfl fun d _ => ?_
  rw [val_main_v7_apply, val_main_v5_apply, val_main_v6_apply, Ideal.mulf_def]
  have hl : l.val < 4095 := l.isLt
  have e5 : idx_main_v5 (idx_main_v8 (ix2 b l) d) = ix3 b (row l.val) d :=
    funext fun a => Fin.ext (by
      match a with
      | ⟨0, _⟩ => rfl
      | ⟨1, _⟩ => exact (Nat.mod_eq_of_lt (show l.val < 4096 by omega)).symm
      | ⟨2, _⟩ => rfl)
  have e6 : idx_main_v6 (idx_main_v8 (ix2 b l) d) = ix3 b (row (l.val + 1)) d :=
    funext fun a => Fin.ext (by
      match a with
      | ⟨0, _⟩ => rfl
      | ⟨1, _⟩ =>
        show 1 + l.val = (l.val + 1) % 4096
        rw [Nat.mod_eq_of_lt (show l.val + 1 < 4096 by omega)]; omega
      | ⟨2, _⟩ => rfl)
  rw [e5, e6, quotient_at, quotient_at]

/-- The sum of the pair products over all pairs of all batches is the specification's total. -/
theorem pairs_total (x : (⟨S8x4096x2048, .f32⟩ : BufTy).Contents (Elt Ideal)) :
    ∑ j : S8x4095.Idx, val_main_v8 (F := Ideal) x j = total x := by
  rw [ValueIdx.sum_idx2]
  unfold total batchSum adjUpTo
  refine Finset.sum_congr rfl fun b _ => ?_
  rw [← Fin.sum_univ_eq_sum_range (fun l => adj x b l) 4095]
  exact Finset.sum_congr rfl fun l _ => pair_at x b l

/-- The reference's last stage is the specification. -/
theorem ref_is_result (x : (⟨S8x4096x2048, .f32⟩ : BufTy).Contents (Elt Ideal)) :
    val_main_v11 (F := Ideal) x = fun _ => result x := by
  funext i
  rw [val_main_v11_apply, val_main_cst_3_apply, val_main_v10_apply, val_main_cst_2_apply, val_main_v9_apply,
    val_main_cst_1_apply]
  simp only [Ideal.subf_def, Ideal.hostDivf_def, Ideal.ofBits_def, Ideal.ofBits_zero_f32, zero_add]
  rw [pairs_total]
  rfl

end Cert.ReferenceIdeal.RefValue

end
-- ==== Proof.lean ====
/-
  The certificate. The tiled program walks each batch's 4096 rows in 8 chunks of 512: it normalises a chunk's rows
  (each divided by its Euclidean norm clamped below by ε), adds the 511 dot products of adjacent normalised rows
  inside the chunk to a running sum, and — keeping the chunk's last normalised row for the next grid point — adds
  the one product that straddles two chunks; after a batch's last chunk the sum is written out, and the host sums
  the 8 batches, divides by 8 · 4095 and subtracts from 1. The reference normalises the whole array, multiplies it
  with itself shifted by one row, and sums everything. Over the extended reals both are
  1 − (Σ_b Σ_{l<4095} ⟨h[b,l], h[b,l+1]⟩) / 32760: the two differ only in how one sum is grouped, and addition of
  extended reals is commutative and associative with no side condition, so the precondition is never opened.
  The three frames: the tiled program's (at the word-level and at the ideal instance) from its symbolic runs per
  chunk kind; the reference's from its run, a straight line of host operations. The idealisation rewrote nothing.
-/
import proofs.«115897_j40424232190289_1_alg».proof.Defs
import proofs.«115897_j40424232190289_1_alg».proof.Proof.Gen.Kernel
import proofs.«115897_j40424232190289_1_alg».proof.Proof.Gen.KernelIdeal
import proofs.«115897_j40424232190289_1_alg».proof.Proof.Gen.ReferenceIdeal
import proofs.«115897_j40424232190289_1_alg».proof.Proof.Gen.Pre_finite_inputs
import proofs.«115897_j40424232190289_1_alg».proof.Proof.Gen.ReferenceIdeal.Run
import proofs.«115897_j40424232190289_1_alg».proof.Proof.Gen.ReferenceIdeal.Read
import proofs.«115897_j40424232190289_1_alg».proof.Proof.BitsBody
import proofs.«115897_j40424232190289_1_alg».proof.Proof.Value
import proofs.«115897_j40424232190289_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Frm.frame m ρ
theorem frame_kernel_ideal : Cert.frame_KernelIdeal := fun m ρ _ => Cert.KernelIdeal.Frm.frame m ρ
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the specification's result of the (agreeing) argument arrays. -/
theorem algebraic : Cert.algebraic_KernelIdeal_ReferenceIdeal := by
  intro m ρ m' ρ' _ hagree
  refine ⟨_, Cert.KernelIdeal.Val.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.ref_is_result, hagree c]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
